-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000 : Shape := ⟨1, ![1600000]⟩
abbrev S100000 : Shape := ⟨1, ![100000]⟩
abbrev S46x64 : Shape := ⟨2, ![46, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S46x64 : S_.BroadcastsInDim S46x64 (![] : Fin 0 → Fin S46x64.rank)
  reducesTo_S46x64_S_d0_1 : S46x64.ReducesTo [0, 1] S_
  h_S_ : 0 < S_.numel
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1600000 : S_.BroadcastsInDim S1600000 (![] : Fin 0 → Fin S1600000.rank)
  reducesTo_S1600000_S_d0 : S1600000.ReducesTo [0] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg1 : IVec S1600000 32) (main_arg2 : IVec S100000 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S1600000 32 := broadcastInDim S1600000 ![] bcast_S_S1600000 main_c_6
  let main_v20 : IVec S1600000 1 := cmpi .sge main_arg1 main_v19
  let main_c_7 : IVec S_ 32 := constantI S_ 32 38#32
  let main_v21 : IVec S1600000 32 := broadcastInDim S1600000 ![] bcast_S_S1600000 main_c_7
  let main_v22 : IVec S1600000 1 := cmpi .slt main_arg1 main_v21
  let main_v23 : IVec S1600000 1 := andi main_v20 main_v22
  let main_c_8 : IVec S_ 1 := constantI S_ 1 1#1
  let main_v24 : IVec S_ 1 := (fun x v => Host.reduce IntOp.andi x v reducesTo_S1600000_S_d0 h_S_) main_v23 main_c_8
  let main_v25 : IVec S_ 1 := andi main_v18 main_v24
  let main_c_9 : IVec S_ 32 := constantI S_ 32 0#32
  let main_v26 : IVec S100000 32 := broadcastInDim S100000 ![] bcast_S_S100000 main_c_9
  let main_v27 : IVec S100000 1 := cmpi .sge main_arg2 main_v26
  let main_c_10 : IVec S_ 32 := constantI S_ 32 4#32
  let main_v28 : IVec S100000 32 := broadcastInDim S100000 ![] bcast_S_S100000 main_c_10
  let main_v29 : IVec S100000 1 := cmpi .slt main_arg2 main_v28
  let main_v30 : IVec S100000 1 := andi main_v27 main_v29
  let main_c_11 : IVec S_ 1 := constantI S_ 1 1#1
  let main_v31 : IVec S_ 1 := (fun x v => Host.reduce IntOp.andi x v reducesTo_S100000_S_d0 h_S_) main_v30 main_c_11
  let main_v32 : IVec S_ 1 := andi main_v25 main_v31
  main_v32

def fn {F : FTy → Type} [FloatOps F] (main_arg0 : IVec S2x1600000 32) (main_arg1 : IVec S1600000 32) (main_arg2 : IVec S100000 32) (main_arg3 : FVec F S46x64 .f32) (main_arg4 : FVec F S64 .f32) (main_arg5 : FVec F S64x1 .f32) (main_arg6 : FVec F S1 .f32) : IVec S_ 1 :=
  let main_v0 : FVec F S46x64 .f32 := Host.absf main_arg3
  let main_cst : FVec F S_ .f32 := constant S_ .f32 0x7F800000#32
  let main_v1 : FVec F S46x64 .f32 := broadcastInDim S46x64 ![] bcast_S_S46x64 main_cst
  let main_v2 : IVec S46x64 1 := cmpf .olt main_v0 main_v1
  let main_c : IVec S_ 1 := constantI S_ 1 1#1
  let main_v3 : IVec S_ 1 := (fun x v => Host.reduce IntOp.andi x v reducesTo_S46x64_S_d0_1 h_S_) main_v2 main_c
  let main_v4 : FVec F S64 .f32 := Host.absf main_arg4
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x1 .f32 := Host.absf main_arg5
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S1 .f32 := Host.absf main_arg6
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_arg2 main_v13 main_v16
-- ==== Kernel.lean ====
abbrev S2x1600000 : Shape := ⟨2, ![2, 1600000]⟩
abbrev S1600000 : Shape := ⟨1, ![1600000]⟩
abbrev S100000 : Shape := ⟨1, ![100000]⟩
abbrev S46x64 : Shape := ⟨2, ![46, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S608 : Shape := ⟨1, ![608]⟩
abbrev S608x1 : Shape := ⟨2, ![608, 1]⟩
abbrev S608x64 : Shape := ⟨2, ![608, 64]⟩
abbrev S1x64 : Shape := ⟨2, ![1, 64]⟩
abbrev S1x1 : Shape := ⟨2, ![1, 1]⟩
abbrev S1x608 : Shape := ⟨2, ![1, 608]⟩
abbrev S16x608 : Shape := ⟨2, ![16, 608]⟩
abbrev S1x2560 : Shape := ⟨2, ![1, 2560]⟩
abbrev S608x2560 : Shape := ⟨2, ![608, 2560]⟩
abbrev S16x2560 : Shape := ⟨2, ![16, 2560]⟩
abbrev S100000x1 : Shape := ⟨2, ![100000, 1]⟩

abbrev nBuf : Space → Nat
  | .hbm => 237
  | .vmem => 5
  | .smem => 0
  | _ => 0

abbrev hbmTy0_0 (i : Nat) : BufTy := match i % 128 with
  | 0 => ⟨S2x1600000, .i32⟩
  | 1 => ⟨S1600000, .i32⟩
  | 2 => ⟨S100000, .i32⟩
  | 3 => ⟨S46x64, .f32⟩
  | 4 => ⟨S64, .f32⟩
  | 5 => ⟨S64x1, .f32⟩
  | 6 => ⟨S1, .f32⟩
  | 7 => ⟨S1x1600000, .i32⟩
  | 8 => ⟨S1600000, .i32⟩
  | 9 => ⟨S1x1600000, .i32⟩
  | 10 => ⟨S1600000, .i32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .i32⟩
  | 29 => ⟨S_, .i32⟩
  | 30 => ⟨S1600000, .i32⟩
  | 31 => ⟨S1600000, .i32⟩
  | 32 => ⟨S_, .i32⟩
  | 33 => ⟨S1600000, .i32⟩
  | 34 => ⟨S1600000, .i32⟩
  | 35 => ⟨S1600000, .i32⟩
  | 36 => ⟨S1600000, .i32⟩
  | 37 => ⟨S1x1600000, .i32⟩
  | 38 => ⟨S608, .i32⟩
  | 39 => ⟨S_, .i32⟩
  | 40 => ⟨S_, .i32⟩
  | 41 => ⟨S608, .i32⟩
  | 42 => ⟨S608, .i32⟩
  | 43 => ⟨S608, .i32⟩
  | 44 => ⟨S_, .i32⟩
  | 45 => ⟨S608, .i32⟩
  | 46 => ⟨S608, .i1⟩
  | 47 => ⟨S608, .i32⟩
  | 48 => ⟨S608, .i32⟩
  | 49 => ⟨S_, .i32⟩
  | 50 => ⟨S608, .i32⟩
  | 51 => ⟨S608, .i1⟩
  | 52 => ⟨S608, .i1⟩
  | 53 => ⟨S_, .i32⟩
  | 54 => ⟨S608, .i32⟩
  | 55 => ⟨S608, .i32⟩
  | 56 => ⟨S608, .i32⟩
  | 57 => ⟨S_, .i32⟩
  | 58 => ⟨S_, .i32⟩
  | 59 => ⟨S608, .i32⟩
  | 60 => ⟨S608, .i32⟩
  | 61 => ⟨S608, .i32⟩
  | 62 => ⟨S_, .i32⟩
  | 63 => ⟨S608, .i32⟩
  | 64 => ⟨S608, .i1⟩
  | 65 => ⟨S608, .i32⟩
  | 66 => ⟨S608, .i32⟩
  | 67 => ⟨S_, .i32⟩
  | 68 => ⟨S608, .i32⟩
  | 69 => ⟨S608, .i1⟩
  | 70 => ⟨S608, .i1⟩
  | 71 => ⟨S_, .i32⟩
  | 72 => ⟨S608, .i32⟩
  | 73 => ⟨S608, .i32⟩
  | 74 => ⟨S608, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S608, .i32⟩
  | 82 => ⟨S608, .i32⟩
  | 83 => ⟨S_, .i32⟩
  | 84 => ⟨S608, .i32⟩
  | 85 => ⟨S608, .i1⟩
  | 86 => ⟨S_, .i32⟩
  | 87 => ⟨S608, .i32⟩
  | 88 => ⟨S608, .i1⟩
  | 89 => ⟨S_, .i32⟩
  | 90 => ⟨S_, .i1⟩
  | 91 => ⟨S608, .i1⟩
  | 92 => ⟨S608, .i1⟩
  | 93 => ⟨S608, .i1⟩
  | 94 => ⟨S608, .i32⟩
  | 95 => ⟨S608, .i32⟩
  | 96 => ⟨S608, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S608, .i32⟩
  | 104 => ⟨S608, .i32⟩
  | 105 => ⟨S_, .i32⟩
  | 106 => ⟨S608, .i32⟩
  | 107 => ⟨S608, .i1⟩
  | 108 => ⟨S_, .i32⟩
  | 109 => ⟨S608, .i32⟩
  | 110 => ⟨S608, .i1⟩
  | 111 => ⟨S_, .i32⟩
  | 112 => ⟨S_, .i1⟩
  | 113 => ⟨S608, .i1⟩
  | 114 => ⟨S608, .i1⟩
  | 115 => ⟨S608, .i1⟩
  | 116 => ⟨S608, .i32⟩
  | 117 => ⟨S608, .i32⟩
  | 118 => ⟨S608, .i32⟩
  | 119 => ⟨S_, .i32⟩
  | 120 => ⟨S608, .i32⟩
  | 121 => ⟨S608, .i1⟩
  | 122 => ⟨S_, .i32⟩
  | 123 => ⟨S608, .i32⟩
  | 124 => ⟨S608, .i32⟩
  | 125 => ⟨S608, .i32⟩
  | 126 => ⟨S608x1, .i32⟩
  | 127 => ⟨S608x64, .f32⟩
  | _ => ⟨S2x1600000, .i32⟩

abbrev hbmTy0_1 (i : Nat) : BufTy := match i % 128 with
  | 0 => ⟨S_, .i32⟩
  | 1 => ⟨S608, .i32⟩
  | 2 => ⟨S608, .i32⟩
  | 3 => ⟨S_, .i32⟩
  | 4 => ⟨S608, .i32⟩
  | 5 => ⟨S608, .i1⟩
  | 6 => ⟨S_, .i32⟩
  | 7 => ⟨S608, .i32⟩
  | 8 => ⟨S608, .i32⟩
  | 9 => ⟨S608, .i32⟩
  | 10 => ⟨S608x1, .i32⟩
  | 11 => ⟨S608x64, .f32⟩
  | 12 => ⟨S608x64, .f32⟩
  | 13 => ⟨S_, .i32⟩
  | 14 => ⟨S608, .i32⟩
  | 15 => ⟨S608, .i32⟩
  | 16 => ⟨S_, .i32⟩
  | 17 => ⟨S608, .i32⟩
  | 18 => ⟨S608, .i1⟩
  | 19 => ⟨S_, .i32⟩
  | 20 => ⟨S608, .i32⟩
  | 21 => ⟨S608, .i32⟩
  | 22 => ⟨S608, .i32⟩
  | 23 => ⟨S608x1, .i32⟩
  | 24 => ⟨S608x64, .f32⟩
  | 25 => ⟨S608x64, .f32⟩
  | 26 => ⟨S1x64, .f32⟩
  | 27 => ⟨S608x64, .f32⟩
  | 28 => ⟨S608x64, .f32⟩
  | 29 => ⟨S608x64, .f32⟩
  | 30 => ⟨S608x64, .f32⟩
  | 31 => ⟨S_, .f32⟩
  | 32 => ⟨S608x64, .f32⟩
  | 33 => ⟨S608x64, .f32⟩
  | 34 => ⟨S608x64, .f32⟩
  | 35 => ⟨S_, .f32⟩
  | 36 => ⟨S608x64, .f32⟩
  | 37 => ⟨S608x64, .f32⟩
  | 38 => ⟨S608x64, .f32⟩
  | 39 => ⟨S_, .f32⟩
  | 40 => ⟨S608x64, .f32⟩
  | 41 => ⟨S608x64, .f32⟩
  | 42 => ⟨S_, .f32⟩
  | 43 => ⟨S608x64, .f32⟩
  | 44 => ⟨S608x64, .f32⟩
  | 45 => ⟨S608x64, .f32⟩
  | 46 => ⟨S608x1, .f32⟩
  | 47 => ⟨S1x1, .f32⟩
  | 48 => ⟨S608x1, .f32⟩
  | 49 => ⟨S608x1, .f32⟩
  | 50 => ⟨S608x1, .f32⟩
  | 51 => ⟨S608x1, .f32⟩
  | 52 => ⟨S_, .f32⟩
  | 53 => ⟨S608x1, .f32⟩
  | 54 => ⟨S608x1, .f32⟩
  | 55 => ⟨S_, .f32⟩
  | 56 => ⟨S608x1, .f32⟩
  | 57 => ⟨S608x1, .f32⟩
  | 58 => ⟨S1x608, .f32⟩
  | 59 => ⟨S1x608, .bf16⟩
  | 60 => ⟨S16x608, .bf16⟩
  | 61 => ⟨S1x1600000, .f32⟩
  | 62 => ⟨S1600000x1, .f32⟩
  | 63 => ⟨S_, .f32⟩
  | 64 => ⟨S100000x1, .f32⟩
  | 65 => ⟨S1600000x1, .i32⟩
  | 66 => ⟨S100000x1, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x1, .f32⟩
  | 76 => ⟨S_, .f32⟩
  | 77 => ⟨S100000x1, .f32⟩
  | 78 => ⟨S1600000x1, .i32⟩
  | 79 => ⟨S100000x1, .f32⟩
  | 80 => ⟨S100000x1, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x1, .f32⟩
  | 90 => ⟨S_, .f32⟩
  | 91 => ⟨S100000x1, .f32⟩
  | 92 => ⟨S1600000x1, .i32⟩
  | 93 => ⟨S100000x1, .f32⟩
  | 94 => ⟨S100000x1, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x1, .f32⟩
  | 104 => ⟨S_, .f32⟩
  | 105 => ⟨S100000x1, .f32⟩
  | 106 => ⟨S1600000x1, .i32⟩
  | 107 => ⟨S100000x1, .f32⟩
  | 108 => ⟨S100000x1, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | .local _ .vmem, ⟨0, _⟩ => ⟨S1x2560, .i32⟩
  | .local _ .vmem, ⟨1, _⟩ => ⟨S1x2560, .i32⟩
  | .local _ .vmem, ⟨2, _⟩ => ⟨S16x608, .bf16⟩
  | .local _ .vmem, ⟨3, _⟩ => ⟨S1x2560, .f32⟩
  | .local _ .vmem, ⟨4, _⟩ => ⟨S1x2560, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v26 : Ref sig .tc := ⟨.hbm, 56, rfl⟩
abbrev main_c_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_c : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_0 : Ref sig .tc := ⟨.hbm, 71, rfl⟩
abbrev main_call1_v12 : Ref sig .tc := ⟨.hbm, 72, rfl⟩
abbrev main_call1_v13 : Ref sig .tc := ⟨.hbm, 73, rfl⟩
abbrev main_v27 : Ref sig .tc := ⟨.hbm, 74, rfl⟩
abbrev main_c_7 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_1 : Ref sig .tc := ⟨.hbm, 83, rfl⟩
abbrev main_call2_v5 : Ref sig .tc := ⟨.hbm, 84, rfl⟩
abbrev main_call2_v6 : Ref sig .tc := ⟨.hbm, 85, rfl⟩
abbrev main_call2_c_2 : Ref sig .tc := ⟨.hbm, 86, rfl⟩
abbrev main_call2_v7 : Ref sig .tc := ⟨.hbm, 87, rfl⟩
abbrev main_call2_v8 : Ref sig .tc := ⟨.hbm, 88, rfl⟩
abbrev main_call2_c_3 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_v28 : Ref sig .tc := ⟨.hbm, 96, rfl⟩
abbrev main_c_8 : Ref sig .tc := ⟨.hbm, 97, rfl⟩
abbrev main_call3_v0 : Ref sig .tc := ⟨.hbm, 98, rfl⟩
abbrev main_call3_c : Ref sig .tc := ⟨.hbm, 99, rfl⟩
abbrev main_call3_v1 : Ref sig .tc := ⟨.hbm, 100, rfl⟩
abbrev main_call3_c_0 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_c_1 : Ref sig .tc := ⟨.hbm, 105, rfl⟩
abbrev main_call3_v5 : Ref sig .tc := ⟨.hbm, 106, rfl⟩
abbrev main_call3_v6 : Ref sig .tc := ⟨.hbm, 107, rfl⟩
abbrev main_call3_c_2 : Ref sig .tc := ⟨.hbm, 108, rfl⟩
abbrev main_call3_v7 : Ref sig .tc := ⟨.hbm, 109, rfl⟩
abbrev main_call3_v8 : Ref sig .tc := ⟨.hbm, 110, rfl⟩
abbrev main_call3_c_3 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_v12 : Ref sig .tc := ⟨.hbm, 115, rfl⟩
abbrev main_call3_v13 : Ref sig .tc := ⟨.hbm, 116, rfl⟩
abbrev main_call3_v14 : Ref sig .tc := ⟨.hbm, 117, rfl⟩
abbrev main_v29 : Ref sig .tc := ⟨.hbm, 118, rfl⟩
abbrev main_c_9 : Ref sig .tc := ⟨.hbm, 119, rfl⟩
abbrev main_v30 : Ref sig .tc := ⟨.hbm, 120, rfl⟩
abbrev main_v31 : Ref sig .tc := ⟨.hbm, 121, rfl⟩
abbrev main_c_10 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_v36 : Ref sig .tc := ⟨.hbm, 127, rfl⟩
abbrev main_c_11 : Ref sig .tc := ⟨.hbm, 128, rfl⟩
abbrev main_v37 : Ref sig .tc := ⟨.hbm, 129, rfl⟩
abbrev main_v38 : Ref sig .tc := ⟨.hbm, 130, rfl⟩
abbrev main_c_12 : Ref sig .tc := ⟨.hbm, 131, rfl⟩
abbrev main_v39 : Ref sig .tc := ⟨.hbm, 132, rfl⟩
abbrev main_v40 : Ref sig .tc := ⟨.hbm, 133, rfl⟩
abbrev main_c_13 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_c_14 : Ref sig .tc := ⟨.hbm, 141, rfl⟩
abbrev main_v47 : Ref sig .tc := ⟨.hbm, 142, rfl⟩
abbrev main_v48 : Ref sig .tc := ⟨.hbm, 143, rfl⟩
abbrev main_c_15 : Ref sig .tc := ⟨.hbm, 144, rfl⟩
abbrev main_v49 : Ref sig .tc := ⟨.hbm, 145, rfl⟩
abbrev main_v50 : Ref sig .tc := ⟨.hbm, 146, rfl⟩
abbrev main_c_16 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_cst : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_cst_17 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_cst_18 : Ref sig .tc := ⟨.hbm, 167, rfl⟩
abbrev main_v68 : Ref sig .tc := ⟨.hbm, 168, rfl⟩
abbrev main_v69 : Ref sig .tc := ⟨.hbm, 169, rfl⟩
abbrev main_cst_19 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_cst_20 : Ref sig .tc := ⟨.hbm, 180, rfl⟩
abbrev main_v79 : Ref sig .tc := ⟨.hbm, 181, rfl⟩
abbrev main_v80 : Ref sig .tc := ⟨.hbm, 182, rfl⟩
abbrev main_cst_21 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_cst_22 : Ref sig .tc := ⟨.hbm, 191, rfl⟩
abbrev main_v88 : Ref sig .tc := ⟨.hbm, 192, rfl⟩
abbrev main_v89 : Ref sig .tc := ⟨.hbm, 193, rfl⟩
abbrev main_v90 : Ref sig .tc := ⟨.hbm, 194, rfl⟩
abbrev main_c_23 : Ref sig .tc := ⟨.hbm, 195, rfl⟩
abbrev main_v91 : Ref sig .tc := ⟨.hbm, 196, rfl⟩
abbrev main_v92 : Ref sig .tc := ⟨.hbm, 197, rfl⟩
abbrev main_c_24 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_cst_25 : Ref sig .tc := ⟨.hbm, 204, rfl⟩
abbrev main_v98 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_c_26 : Ref sig .tc := ⟨.hbm, 209, rfl⟩
abbrev main_v102 : Ref sig .tc := ⟨.hbm, 210, rfl⟩
abbrev main_v103 : Ref sig .tc := ⟨.hbm, 211, rfl⟩
abbrev main_c_27 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_cst_28 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_c_29 : Ref sig .tc := ⟨.hbm, 223, rfl⟩
abbrev main_v113 : Ref sig .tc := ⟨.hbm, 224, rfl⟩
abbrev main_v114 : Ref sig .tc := ⟨.hbm, 225, rfl⟩
abbrev main_c_30 : Ref sig .tc := ⟨.hbm, 226, rfl⟩
abbrev main_v115 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_cst_31 : Ref sig .tc := ⟨.hbm, 232, rfl⟩
abbrev main_v120 : Ref sig .tc := ⟨.hbm, 233, rfl⟩
abbrev main_v121 : Ref sig .tc := ⟨.hbm, 234, rfl⟩
abbrev main_v122 : Ref sig .tc := ⟨.hbm, 235, rfl⟩
abbrev main_v123 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2560 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1x1600000 : S1600000.ShapeCasts S1x1600000
  bcast_S_S608 : S_.BroadcastsInDim S608 (![] : Fin 0 → Fin S608.rank)
  bcast_S608_S608x1_0 : S608.BroadcastsInDim S608x1 (![0] : Fin 1 → Fin S608x1.rank)
  bcast_S64_S1x64_1 : S64.BroadcastsInDim S1x64 (![1] : Fin 1 → Fin S1x64.rank)
  bcast_S1x64_S608x64_0_1 : S1x64.BroadcastsInDim S608x64 (![0, 1] : Fin 2 → Fin S608x64.rank)
  bcast_S_S608x64 : S_.BroadcastsInDim S608x64 (![] : Fin 0 → Fin S608x64.rank)
  bcast_S1_S1x1_1 : S1.BroadcastsInDim S1x1 (![1] : Fin 1 → Fin S1x1.rank)
  bcast_S1x1_S608x1_0_1 : S1x1.BroadcastsInDim S608x1 (![0, 1] : Fin 2 → Fin S608x1.rank)
  bcast_S_S608x1 : S_.BroadcastsInDim S608x1 (![] : Fin 0 → Fin S608x1.rank)
  shapeCasts_S608x1_S1x608 : S608x1.ShapeCasts S1x608
  bitsLt_bf16_f32 : FTy.bits .bf16 < FTy.bits .f32
  bcast_S1x608_S16x608_0_1 : S1x608.BroadcastsInDim S16x608 (![0, 1] : Fin 2 → Fin S16x608.rank)
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  iota_S608x2560_d0_w32 : S608x2560.Iotas .tc 32 [0]
  broadcasts_S1x2560_S608x2560 : S1x2560.Broadcasts S608x2560
  natLt_1_32 : 1 < 32
  inb_S16x608_S16x608_0_0 : ∀ a, (![0, 0] : Fin 2 → Nat) a + S16x608.size a ≤ S16x608.size a
  h_S16x608 : 0 < S16x608.numel
  shapeCasts_S16x608_S16x608 : S16x608.ShapeCasts S16x608
  slices_S16x2560_o0_0_S1x2560 : S16x2560.Slices ![0, 0] S1x2560
  shapeCasts_S1x1600000_S1600000x1 : S1x1600000.ShapeCasts S1600000x1
  bcast_S_S100000x1 : S_.BroadcastsInDim S100000x1 (![] : Fin 0 → Fin S100000x1.rank)
  gather_S100000_S1600000x1_S1600000_n_0_n_n_0_1_1_wf : GatherDims.WF S100000 S1600000x1 S1600000 [] [0] [] [0] [] 1 ![1]
  gather_S46x64_S608x1_S608x64_1_0_n_n_0_1_164_wf : GatherDims.WF S46x64 S608x1 S608x64 [1] [0] [] [0] [] 1 ![1, 64]
  dot_S608x64_S64x1_S608x1_1_0_0_1_n_n_wf : DotDims.WF S608x64 S64x1 S608x1 [1] [0] [0] [1] [] []
  dot_S16x608_S608x2560_S16x2560_1_0_0_1_n_n_wf : DotDims.WF S16x608 S608x2560 S16x2560 [1] [0] [0] [1] [] []
  scatter_S100000x1_S1600000x1_S1600000x1_1_0_0_1_wf : ScatterDims.WF S100000x1 S1600000x1 S1600000x1 [1] [0] [0] 1
  gather_S100000x1_S1600000x1_S1600000x1_1_0_n_n_0_1_11_wf : GatherDims.WF S100000x1 S1600000x1 S1600000x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2560.size a ≤ S1x1600000.size a
  hwx0_0 : ∀ i : grid0.Coords, EltTy.bits .i32 = 32 ∨ (Rect.block (s := S1x1600000) S1x2560.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x608.size a ≤ S16x608.size a
  hwx0_1 : ∀ i : grid0.Coords, EltTy.bits .bf16 = 32 ∨ (Rect.block (s := S16x608) S16x608.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2560.size a ≤ S1x1600000.size a
  hwx0_2 : ∀ i : grid0.Coords, EltTy.bits .f32 = 32 ∨ (Rect.block (s := S1x1600000) S1x2560.size (cc0_transform_2 i) (hinb0_2 i)).WholeWords (EltTy.packing .f32)

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S46x64_S608x1_S608x64_1_0_n_n_0_1_164 : GatherDims S46x64 S608x1 S608x64 where
  offsetDims := [1]
  collapsedSliceDims := [0]
  operandBatchingDims := []
  startIndicesBatchingDims := []
  startIndexMap := [0]
  indexVectorDim := 1
  sliceSizes := ![1, 64]
  wf := gather_S46x64_S608x1_S608x64_1_0_n_n_0_1_164_wf
def dot_S608x64_S64x1_S608x1_1_0_0_1_n_n : DotDims S608x64 S64x1 S608x1 where
  lhsContracting := [1]
  rhsContracting := [0]
  lhsNonContracting := [0]
  rhsNonContracting := [1]
  lhsBatch := []
  rhsBatch := []
  wf := dot_S608x64_S64x1_S608x1_1_0_0_1_n_n_wf
def dot_S16x608_S608x2560_S16x2560_1_0_0_1_n_n : DotDims S16x608 S608x2560 S16x2560 where
  lhsContracting := [1]
  rhsContracting := [0]
  lhsNonContracting := [0]
  rhsNonContracting := [1]
  lhsBatch := []
  rhsBatch := []
  wf := dot_S16x608_S608x2560_S16x2560_1_0_0_1_n_n_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf

abbrev win0_0 : Pipeline.Window sig grid0 :=
  Pipeline.Window.ofSpec (Memref.whole main_v24) S1x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S16x608.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v86) S1x2560.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x1600000 : Shape := ⟨2, ![2, 1600000]⟩
abbrev S1600000 : Shape := ⟨1, ![1600000]⟩
abbrev S100000 : Shape := ⟨1, ![100000]⟩
abbrev S46x64 : Shape := ⟨2, ![46, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1x1 : Shape := ⟨2, ![1, 1]⟩
abbrev S100000x1 : Shape := ⟨2, ![100000, 1]⟩

abbrev nBuf : Space → Nat
  | .hbm => 154
  | .vmem => 0
  | .smem => 0
  | _ => 0

abbrev hbmTy0_0 (i : Nat) : BufTy := match i % 128 with
  | 0 => ⟨S2x1600000, .i32⟩
  | 1 => ⟨S1600000, .i32⟩
  | 2 => ⟨S100000, .i32⟩
  | 3 => ⟨S46x64, .f32⟩
  | 4 => ⟨S64, .f32⟩
  | 5 => ⟨S64x1, .f32⟩
  | 6 => ⟨S1, .f32⟩
  | 7 => ⟨S1x1600000, .i32⟩
  | 8 => ⟨S1600000, .i32⟩
  | 9 => ⟨S1x1600000, .i32⟩
  | 10 => ⟨S1600000, .i32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S_, .i32⟩
  | 39 => ⟨S1600000, .i32⟩
  | 40 => ⟨S1600000, .i32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x64, .f32⟩
  | 50 => ⟨S1600000x64, .f32⟩
  | 51 => ⟨S_, .i32⟩
  | 52 => ⟨S1600000, .i32⟩
  | 53 => ⟨S1600000, .i32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x64, .f32⟩
  | 64 => ⟨S1x64, .f32⟩
  | 65 => ⟨S1600000x64, .f32⟩
  | 66 => ⟨S1600000x64, .f32⟩
  | 67 => ⟨S1600000x64, .f32⟩
  | 68 => ⟨S1600000x64, .f32⟩
  | 69 => ⟨S_, .f32⟩
  | 70 => ⟨S1600000x64, .f32⟩
  | 71 => ⟨S1600000x64, .f32⟩
  | 72 => ⟨S1600000x64, .f32⟩
  | 73 => ⟨S_, .f32⟩
  | 74 => ⟨S1600000x64, .f32⟩
  | 75 => ⟨S1600000x64, .f32⟩
  | 76 => ⟨S1600000x64, .f32⟩
  | 77 => ⟨S_, .f32⟩
  | 78 => ⟨S1600000x64, .f32⟩
  | 79 => ⟨S1600000x64, .f32⟩
  | 80 => ⟨S_, .f32⟩
  | 81 => ⟨S1600000x64, .f32⟩
  | 82 => ⟨S1600000x64, .f32⟩
  | 83 => ⟨S1600000x64, .f32⟩
  | 84 => ⟨S1600000x1, .f32⟩
  | 85 => ⟨S1x1, .f32⟩
  | 86 => ⟨S1600000x1, .f32⟩
  | 87 => ⟨S1600000x1, .f32⟩
  | 88 => ⟨S1600000x1, .f32⟩
  | 89 => ⟨S1600000x1, .f32⟩
  | 90 => ⟨S_, .f32⟩
  | 91 => ⟨S1600000x1, .f32⟩
  | 92 => ⟨S1600000x1, .f32⟩
  | 93 => ⟨S_, .f32⟩
  | 94 => ⟨S1600000x1, .f32⟩
  | 95 => ⟨S1600000x1, .f32⟩
  | 96 => ⟨S_, .f32⟩
  | 97 => ⟨S100000x1, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x1, .f32⟩
  | 107 => ⟨S1600000x1, .f32⟩
  | 108 => ⟨S_, .f32⟩
  | 109 => ⟨S100000x1, .f32⟩
  | 110 => ⟨S1600000x1, .i32⟩
  | 111 => ⟨S100000x1, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x1, .f32⟩
  | 121 => ⟨S1600000x1, .f32⟩
  | 122 => ⟨S_, .f32⟩
  | 123 => ⟨S100000x1, .f32⟩
  | 124 => ⟨S1600000x1, .i32⟩
  | 125 => ⟨S100000x1, .f32⟩
  | 126 => ⟨S_, .i32⟩
  | 127 => ⟨S1600000, .i32⟩
  | _ => ⟨S2x1600000, .i32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x1, .f32⟩
  | 7 => ⟨S1600000x1, .f32⟩
  | 8 => ⟨S_, .f32⟩
  | 9 => ⟨S100000x1, .f32⟩
  | 10 => ⟨S1600000x1, .i32⟩
  | 11 => ⟨S100000x1, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x1, .f32⟩
  | 21 => ⟨S1600000x1, .f32⟩
  | 22 => ⟨S_, .f32⟩
  | 23 => ⟨S100000x1, .f32⟩
  | 24 => ⟨S1600000x1, .i32⟩
  | 25 => ⟨S100000x1, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_c_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_c_17 : Ref sig .tc := ⟨.hbm, 98, rfl⟩
abbrev main_v72 : Ref sig .tc := ⟨.hbm, 99, rfl⟩
abbrev main_v73 : Ref sig .tc := ⟨.hbm, 100, rfl⟩
abbrev main_c_18 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_19 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_20 : Ref sig .tc := ⟨.hbm, 112, rfl⟩
abbrev main_v83 : Ref sig .tc := ⟨.hbm, 113, rfl⟩
abbrev main_v84 : Ref sig .tc := ⟨.hbm, 114, rfl⟩
abbrev main_c_21 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_22 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_23 : Ref sig .tc := ⟨.hbm, 126, rfl⟩
abbrev main_v94 : Ref sig .tc := ⟨.hbm, 127, rfl⟩
abbrev main_v95 : Ref sig .tc := ⟨.hbm, 128, rfl⟩
abbrev main_c_24 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_25 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_26 : Ref sig .tc := ⟨.hbm, 140, rfl⟩
abbrev main_v105 : Ref sig .tc := ⟨.hbm, 141, rfl⟩
abbrev main_v106 : Ref sig .tc := ⟨.hbm, 142, rfl⟩
abbrev main_c_27 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_28 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  bcast_S_S100000x1 : S_.BroadcastsInDim S100000x1 (![] : Fin 0 → Fin S100000x1.rank)
  gather_S100000_S1600000x1_S1600000_n_0_n_n_0_1_1_wf : GatherDims.WF S100000 S1600000x1 S1600000 [] [0] [] [0] [] 1 ![1]
  gather_S46x64_S1600000x1_S1600000x64_1_0_n_n_0_1_164_wf : GatherDims.WF S46x64 S1600000x1 S1600000x64 [1] [0] [] [0] [] 1 ![1, 64]
  dot_S1600000x64_S64x1_S1600000x1_1_0_0_1_n_n_wf : DotDims.WF S1600000x64 S64x1 S1600000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S46x64_S1600000x1_S1600000x64_1_0_n_n_0_1_164 : GatherDims S46x64 S1600000x1 S1600000x64 where
  offsetDims := [1]
  collapsedSliceDims := [0]
  operandBatchingDims := []
  startIndicesBatchingDims := []
  startIndexMap := [0]
  indexVectorDim := 1
  sliceSizes := ![1, 64]
  wf := gather_S46x64_S1600000x1_S1600000x64_1_0_n_n_0_1_164_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

class Facts : Prop extends Facts₀ where

variable [Facts]
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.LibGeluHead.lean ====
/-
  The edge embedding of a typed graph: a hidden row (three weight rows and a bias, added), the tanh form of the
  GELU entry by entry, one output column against the second weight matrix, a bias, and the logistic function written
  as 1 / (1 + exp (-s)).  Stated over PLAIN coordinates so that a table of 608 label combinations and an array of
  1,600,000 edges are the same function of their hidden rows, and read off the host spelling of the stage (additions
  of arrays, scalar constants broadcast, a dot_general, vectors broadcast in two steps) at any number of rows.
-/
import Idealize.ShloMosaic.PureOps.Ideal
import Idealize.ShloMosaic.PureOps.Ideal.Laws
import Idealize.ShloMosaic.Lib.ValueIdx
import Idealize.ShloMosaic.Lib.Pipeline.Value
import proofs.«414910_j50800873177305_3_alg».proof.Proof.LibMlp

noncomputable section

open Idealize.ShloMosaic Idealize.ShloMosaic.ValueIdx

namespace Cert.GeluHead

/-- The tanh form of the GELU at one extended real:  x · (1/2 · (1 + tanh (c · (x + a · x³)))) , the constants the
    program's four single-precision words. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The logistic function as the programs write it:  1 / (1 + exp (-s)) . -/
def sigm (s : EReal) : EReal :=
  Ideal.div (Ideal.ofBits .f32 0x3F800000#32) (Ideal.ofBits .f32 0x3F800000#32 + Ideal.exp (-s))

/-- An embedding from its hidden row: GELU entry by entry, against the one column of `W2`, plus the bias, through the
    logistic function. -/
def head (W2 : (⟨2, ![64, 1]⟩ : Shape).Idx → EReal) (b2 : (⟨1, ![1]⟩ : Shape).Idx → EReal) (h : Fin 64 → EReal) : EReal :=
  sigm ((∑ k : Fin 64, gelu (h k) * W2 (ix2 k 0)) + b2 (ix1 0))

/-- A scalar constant broadcast over any shape reads, at every index, the extended real its word encodes. -/
theorem bcast_const {S : Shape} (h0 : (⟨0, ![]⟩ : Shape).BroadcastsInDim S ![]) (w : BitVec 32) (i : S.Idx) :
    broadcastInDim S ![] h0 (constant (F := Ideal) (⟨0, ![]⟩ : Shape) .f32 w) i = Ideal.ofBits .f32 w := rfl

/-- The hidden row: three arrays added and a bias vector broadcast in two steps, read at (p, k), is the sum of the three
    entries and the bias entry k. -/
theorem hidden_apply {N : ℕ} (hb1 : (⟨1, ![64]⟩ : Shape).BroadcastsInDim ⟨2, ![1, 64]⟩ ![1])
    (hb2 : (⟨2, ![1, 64]⟩ : Shape).BroadcastsInDim ⟨2, ![N, 64]⟩ ![0, 1])
    (g1 g2 g3 : FVec Ideal ⟨2, ![N, 64]⟩ .f32) (b1 : FVec Ideal ⟨1, ![64]⟩ .f32) (p : Fin N) (k : Fin 64) :
    addf (addf (addf g1 g2) g3) (broadcastInDim (⟨2, ![N, 64]⟩ : Shape) ![0, 1] hb2 (broadcastInDim (⟨2, ![1, 64]⟩ : Shape) ![1] hb1 b1)) (ix2 p k)
      = g1 (ix2 p k) + g2 (ix2 p k) + g3 (ix2 p k) + b1 (ix1 k) := by
  simp only [addf_apply]
  rw [Cert.Mlp.bcast_two hb1 hb2 b1 p k]

/-- The host spelling of the tanh-GELU of an array, read at an index, is `gelu` of the entry there: every operation is
    entry by entry and every constant is a broadcast scalar. -/
theorem host_gelu {S : Shape} (h0 : (⟨0, ![]⟩ : Shape).BroadcastsInDim S ![]) (X : FVec Ideal S .f32) (i : S.Idx) :
    mulf X
      (mulf (broadcastInDim S ![] h0 (constant (⟨0, ![]⟩ : Shape) .f32 0x3F000000#32))
        (addf (broadcastInDim S ![] h0 (constant (⟨0, ![]⟩ : Shape) .f32 0x3F800000#32))
          (Host.tanh (mulf (broadcastInDim S ![] h0 (constant (⟨0, ![]⟩ : Shape) .f32 0x3F4C422A#32))
            (addf X (mulf (broadcastInDim S ![] h0 (constant (⟨0, ![]⟩ : Shape) .f32 0x3D372713#32)) (mulf (mulf X X) X))))))) i
      = gelu (X i) := rfl

/-- THE HOST SPELLING READ AT A ROW: the stage applied to the sum of three row arrays and a bias, read at row `p`
    (column 0 of its one-column result), is `head` of that row's hidden entries. -/
theorem host_head {N : ℕ} (d : DotDims ⟨2, ![N, 64]⟩ ⟨2, ![64, 1]⟩ ⟨2, ![N, 1]⟩) (hd : d = DotDims.plain N 64 1)
    (h0 : (⟨0, ![]⟩ : Shape).BroadcastsInDim ⟨2, ![N, 64]⟩ ![])
    (h0' : (⟨0, ![]⟩ : Shape).BroadcastsInDim ⟨2, ![N, 1]⟩ ![])
    (hb1 : (⟨1, ![64]⟩ : Shape).BroadcastsInDim ⟨2, ![1, 64]⟩ ![1])
    (hb2 : (⟨2, ![1, 64]⟩ : Shape).BroadcastsInDim ⟨2, ![N, 64]⟩ ![0, 1])
    (hc1 : (⟨1, ![1]⟩ : Shape).BroadcastsInDim ⟨2, ![1, 1]⟩ ![1])
    (hc2 : (⟨2, ![1, 1]⟩ : Shape).BroadcastsInDim ⟨2, ![N, 1]⟩ ![0, 1])
    (g1 g2 g3 : FVec Ideal ⟨2, ![N, 64]⟩ .f32) (b1 : FVec Ideal ⟨1, ![64]⟩ .f32) (W2 : FVec Ideal ⟨2, ![64, 1]⟩ .f32)
    (b2 : FVec Ideal ⟨1, ![1]⟩ .f32) (p : Fin N) :
    Host.divf (broadcastInDim (⟨2, ![N, 1]⟩ : Shape) ![] h0' (constant (⟨0, ![]⟩ : Shape) .f32 0x3F800000#32))
      (addf (broadcastInDim (⟨2, ![N, 1]⟩ : Shape) ![] h0' (constant (⟨0, ![]⟩ : Shape) .f32 0x3F800000#32))
        (Host.exp (Host.negf (addf
          (Host.dotGeneral d none
            (mulf (addf (addf (addf g1 g2) g3) (broadcastInDim (⟨2, ![N, 64]⟩ : Shape) ![0, 1] hb2 (broadcastInDim (⟨2, ![1, 64]⟩ : Shape) ![1] hb1 b1)))
              (mulf (broadcastInDim (⟨2, ![N, 64]⟩ : Shape) ![] h0 (constant (⟨0, ![]⟩ : Shape) .f32 0x3F000000#32))
                (addf (broadcastInDim (⟨2, ![N, 64]⟩ : Shape) ![] h0 (constant (⟨0, ![]⟩ : Shape) .f32 0x3F800000#32))
                  (Host.tanh (mulf (broadcastInDim (⟨2, ![N, 64]⟩ : Shape) ![] h0 (constant (⟨0, ![]⟩ : Shape) .f32 0x3F4C422A#32))
                    (addf (addf (addf (addf g1 g2) g3) (broadcastInDim (⟨2, ![N, 64]⟩ : Shape) ![0, 1] hb2 (broadcastInDim (⟨2, ![1, 64]⟩ : Shape) ![1] hb1 b1)))
                      (mulf (broadcastInDim (⟨2, ![N, 64]⟩ : Shape) ![] h0 (constant (⟨0, ![]⟩ : Shape) .f32 0x3D372713#32))
                        (mulf (mulf (addf (addf (addf g1 g2) g3) (broadcastInDim (⟨2, ![N, 64]⟩ : Shape) ![0, 1] hb2 (broadcastInDim (⟨2, ![1, 64]⟩ : Shape) ![1] hb1 b1)))
                            (addf (addf (addf g1 g2) g3) (broadcastInDim (⟨2, ![N, 64]⟩ : Shape) ![0, 1] hb2 (broadcastInDim (⟨2, ![1, 64]⟩ : Shape) ![1] hb1 b1))))
                          (addf (addf (addf g1 g2) g3) (broadcastInDim (⟨2, ![N, 64]⟩ : Shape) ![0, 1] hb2 (broadcastInDim (⟨2, ![1, 64]⟩ : Shape) ![1] hb1 b1)))))))))))
            W2)
          (broadcastInDim (⟨2, ![N, 1]⟩ : Shape) ![0, 1] hc2 (broadcastInDim (⟨2, ![1, 1]⟩ : Shape) ![1] hc1 b2))))))
      (ix2 p 0)
    = head W2 b2 (fun k => g1 (ix2 p k) + g2 (ix2 p k) + g3 (ix2 p k) + b1 (ix1 k)) := by
  subst hd
  -- the outer operations are entry by entry: 1 / (1 + exp (-(s))) with s the product's entry plus the bias
  show Ideal.div (Ideal.ofBits .f32 0x3F800000#32) (Ideal.ofBits .f32 0x3F800000#32 + Ideal.exp (-(
      Host.dotGeneral (DotDims.plain N 64 1) none _ W2 (ix2 p 0)
        + broadcastInDim (⟨2, ![N, 1]⟩ : Shape) ![0, 1] hc2 (broadcastInDim (⟨2, ![1, 1]⟩ : Shape) ![1] hc1 b2) (ix2 p 0)))) = _
  -- the contraction is a sum over the 64 hidden entries of row p against the one column of W2
  rw [show Host.dotGeneral (DotDims.plain N 64 1) none _ W2 (ix2 p 0) = _ from
    Ideal.dotGeneral_apply (DotDims.plain N 64 1) none .single _ W2 (ix2 p 0)]
  rw [Cert.Mlp.plain_sum _ W2 (ix2 p 0), Cert.Mlp.bcast_two hc1 hc2 b2 p 0]
  unfold head sigm
  -- summand by summand: the GELU spelling at (p, k) is gelu of the hidden entry, which is the sum of the three rows and the bias
  have hs : ∀ k : Fin 64, _ = gelu (g1 (ix2 p k) + g2 (ix2 p k) + g3 (ix2 p k) + b1 (ix1 k)) * W2 (ix2 k 0) := fun k => by
    rw [← hidden_apply hb1 hb2 g1 g2 g3 b1 p k, ← host_gelu h0 _ (ix2 p k)]
  rw [Finset.sum_congr rfl fun k _ => (hs k).symm]
  rfl

end Cert.GeluHead

end
-- ==== Proof.LibRowGather.lean ====
/-
  Rows of a table taken at a column of start indices (jnp's  table[idx]  on a matrix): the result's row p is the
  table's row at  idx[p, 0] , read as a signed integer and clamped into the table; and NumPy's treatment of a
  negative index (add the extent) followed by that clamp does nothing to an index already in range.
-/
import Idealize.ShloMosaic.PureOps
import Idealize.ShloMosaic.Lib.ValueIdx
import Idealize.ShloMosaic.Lib.StableHlo.Predicate

noncomputable section

open Idealize.ShloMosaic Idealize.ShloMosaic.ValueIdx

namespace Cert.RowGather

variable {α : Type}

/-- The dimension numbers of  table[idx]  for a [T, C] table and an [N, 1] column of start indices: axis 0 collapsed
    and indexed, axis 1 an offset axis taken whole. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (p, k): the table at row  idx[p, 0]  (signed, clamped into [0, T − 1]) and column k. -/
theorem gather_rows_apply {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (p : Fin N) (k : Fin C) :
    Host.gather (rowsDims T C N wf) x idx (ix2 p k)
      = x (ix2 ⟨min (idx (ix2 p 0)).toInt.toNat (T - 1), by omega⟩ k) := by
  unfold Host.gather
  congr 1
  funext a
  refine Fin.ext ?_
  match a with
  | ⟨0, _⟩ =>
    show (rowsDims T C N wf).start (ix2 p k) idx 0 + (rowsDims T C N wf).batchCoord (ix2 p k) 0
      + (rowsDims T C N wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 p k) ⟨List.idxOf (0 : Fin 2) (rowsDims T C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 p k) idx 1 + (rowsDims T C N wf).batchCoord (ix2 p k) 1
      + (rowsDims T C N wf).offCoord (ix2 p k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- A start index already in [0, T): adding the extent when negative and clamping leave its value. -/
theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  have ha31 : a.toNat < 2 ^ 31 := by omega
  have h0 : (0#32).toNat < 2 ^ 31 := by decide
  have hc : ¬ IntOp.cmpi .slt a 0#32 = 1 := by
    intro h
    have hlt := (StableHlo.Predicate.slt_iff_toNat ha31 h0).mp h
    simp at hlt
  unfold Scalar.select
  rw [if_neg hc, StableHlo.Predicate.toInt_eq_toNat_of_lt ha31, Int.toNat_natCast]
  omega

end Cert.RowGather

end
-- ==== Proof.Spec.lean ====
/-
  The edge embedding as a function of three labels.

  An edge of type a whose endpoints have node types b (source) and c (target) gets the embedding
      head (W1[a] + W1[38 + b] + W1[42 + c] + b1) ,
  the one-hot encoding of the triple against the first weight matrix being the sum of three of its rows.  It depends
  on the edge only through (a, b, c): 38 · 4 · 4 = 608 values in all, which can be tabulated at the combined label
  16 a + 4 b + c  and looked up.
-/
import proofs.«414910_j50800873177305_3_alg».proof.Proof.LibGeluHead

noncomputable section

open Idealize.ShloMosaic Idealize.ShloMosaic.ValueIdx

namespace Cert.EdgeEmb

/-- Row r of the first weight matrix, entry k (zero past the last row: never read there). -/
def rowOf (W1 : (⟨2, ![46, 64]⟩ : Shape).Idx → EReal) (r : ℕ) (k : Fin 64) : EReal :=
  if h : r < 46 then W1 (ix2 ⟨r, h⟩ k) else 0

/-- The embedding of the label triple (a, b, c). -/
def emb (W1 : (⟨2, ![46, 64]⟩ : Shape).Idx → EReal) (b1 : (⟨1, ![64]⟩ : Shape).Idx → EReal)
    (W2 : (⟨2, ![64, 1]⟩ : Shape).Idx → EReal) (b2 : (⟨1, ![1]⟩ : Shape).Idx → EReal) (a b c : ℕ) : EReal :=
  Cert.GeluHead.head W2 b2 (fun k => rowOf W1 a k + rowOf W1 (38 + b) k + rowOf W1 (42 + c) k + b1 (ix1 k))

/-- A row read at an index below 46 is the matrix entry. -/
theorem rowOf_lt (W1 : (⟨2, ![46, 64]⟩ : Shape).Idx → EReal) (r : ℕ) (h : r < 46) (k : Fin 64) :
    rowOf W1 r k = W1 (ix2 ⟨r, h⟩ k) := dif_pos h

/-- The combined label decodes to its three parts. -/
theorem combo_parts (a b c : ℕ) (hb : b < 4) (hc : c < 4) :
    (16 * a + 4 * b + c) / 16 = a ∧ (16 * a + 4 * b + c) / 4 % 4 = b ∧ (16 * a + 4 * b + c) % 4 = c := by
  refine ⟨by omega, by omega, by omega⟩

end Cert.EdgeEmb

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.KerIds.lean ====
/-
  The host lines of the kernel's program before its one launch: the table of 608 embeddings.

  The combined label k of a table row decodes to the edge type  k / 16 , the source's node type  (k / 4) mod 4  and the
  target's  k mod 4  (jnp's floor division and remainder on non-negative words are the natural-number ones); the row's
  three weight-matrix rows are gathered at  k / 16 ,  38 + (k / 4) mod 4  and  42 + k mod 4 , all inside the matrix; so
  table row k is the embedding of that label triple, and the 16-row replica read at (r, k) is the same.
-/
import proofs.«414910_j50800873177305_3_alg».proof.Proof.Gen.KernelIdeal.Frame
import Idealize.ShloMosaic.Lib.StableHlo.Run
import Idealize.ShloMosaic.PureOps.Ideal
import Idealize.ShloMosaic.Lib.ValueIdx
import Idealize.ShloMosaic.Lib.Pipeline.Value
import proofs.«414910_j50800873177305_3_alg».proof.Proof.LibGeluHead
import proofs.«414910_j50800873177305_3_alg».proof.Proof.LibRowGather
import proofs.«414910_j50800873177305_3_alg».proof.Proof.Spec
import proofs.«414910_j50800873177305_3_alg».proof.Proof.LibTRef

set_option maxRecDepth 16384
noncomputable section
namespace Cert.KernelIdeal.Host
open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- Running two lines of host operations one after the other is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op ops ih => exact ih _

/-- The buffers after the host lines that make the label-combination ids, before the table itself is computed. -/
def VA (c : Dev nD) : Valuation τ sig (Elt Ideal) :=
  StableHlo.after (List.flatten [hostOps0, hostOps0_1, hostOps0_2, hostOps0_3, hostOps0_4, hostOps0_5, hostOps0_6, hostOps0_7]) (fun b => m (c, b))

theorem V0_eq (c : Dev nD) : V0 (F := Ideal) m c = StableHlo.after hostOps0_8 (VA m c) := by
  unfold VA
  rw [← after_append]
  show StableHlo.after (List.flatten ([hostOps0, hostOps0_1, hostOps0_2, hostOps0_3, hostOps0_4, hostOps0_5, hostOps0_6, hostOps0_7] ++ [hostOps0_8])) _ = _
  rw [List.flatten_append]
  simp only [List.flatten_cons, List.flatten_nil, List.append_nil]

set_option maxHeartbeats 8000000 in
/-- Table row k's edge type is  k / 16 : floor division of a non-negative word by 16, decided on the 608 rows. -/
theorem ids_e (c : Dev nD) :
    (VA m c (Proc.devRef .tc main_v26) : S608.Idx → BitVec 32) = fun i => BitVec.ofNat 32 ((i 0).val / 16) := by
  unfold VA
  simp only [hostOps0, hostOps0_1, hostOps0_2, hostOps0_3, hostOps0_4, hostOps0_5, hostOps0_6, hostOps0_7, List.flatten_cons, List.flatten_nil, List.append_nil, List.cons_append, List.nil_append]
  after_results_simp
  simp only [TRef.ofBuf, TRef.toBuf, cast_eq]
  funext i
  obtain ⟨k, rfl⟩ : ∃ k : Fin 608, i = ix1 k := ⟨i 0, eq_ix1 i⟩
  revert k
  decide +kernel

set_option maxHeartbeats 8000000 in
/-- Table row k's source node type is  (k / 4) mod 4 . -/
theorem ids_h (c : Dev nD) :
    (VA m c (Proc.devRef .tc main_v28) : S608.Idx → BitVec 32) = fun i => BitVec.ofNat 32 ((i 0).val / 4 % 4) := by
  unfold VA
  simp only [hostOps0, hostOps0_1, hostOps0_2, hostOps0_3, hostOps0_4, hostOps0_5, hostOps0_6, hostOps0_7, List.flatten_cons, List.flatten_nil, List.append_nil, List.cons_append, List.nil_append]
  after_results_simp
  simp only [TRef.ofBuf, TRef.toBuf, cast_eq]
  funext i
  obtain ⟨k, rfl⟩ : ∃ k : Fin 608, i = ix1 k := ⟨i 0, eq_ix1 i⟩
  revert k
  decide +kernel

set_option maxHeartbeats 8000000 in
/-- Table row k's target node type is  k mod 4 . -/
theorem ids_t (c : Dev nD) :
    (VA m c (Proc.devRef .tc main_v29) : S608.Idx → BitVec 32) = fun i => BitVec.ofNat 32 ((i 0).val % 4) := by
  unfold VA
  simp only [hostOps0, hostOps0_1, hostOps0_2, hostOps0_3, hostOps0_4, hostOps0_5, hostOps0_6, hostOps0_7, List.flatten_cons, List.flatten_nil, List.append_nil, List.cons_append, List.nil_append]
  after_results_simp
  simp only [TRef.ofBuf, TRef.toBuf, cast_eq]
  funext i
  obtain ⟨k, rfl⟩ : ∃ k : Fin 608, i = ix1 k := ⟨i 0, eq_ix1 i⟩
  revert k
  decide +kernel

set_option maxHeartbeats 8000000 in
theorem VA_arg3 (c : Dev nD) : (VA m c (Proc.devRef .tc main_arg3) : S46x64.Idx → EReal) = m ((c.tc : Thread nD τ).loc main_arg3) := by
  unfold VA
  simp only [hostOps0, hostOps0_1, hostOps0_2, hostOps0_3, hostOps0_4, hostOps0_5, hostOps0_6, hostOps0_7, List.flatten_cons, List.flatten_nil, List.append_nil, List.cons_append, List.nil_append]
  after_results_simp

set_option maxHeartbeats 8000000 in
theorem VA_arg4 (c : Dev nD) : (VA m c (Proc.devRef .tc main_arg4) : S64.Idx → EReal) = m ((c.tc : Thread nD τ).loc main_arg4) := by
  unfold VA
  simp only [hostOps0, hostOps0_1, hostOps0_2, hostOps0_3, hostOps0_4, hostOps0_5, hostOps0_6, hostOps0_7, List.flatten_cons, List.flatten_nil, List.append_nil, List.cons_append, List.nil_append]
  after_results_simp

set_option maxHeartbeats 8000000 in
theorem VA_arg5 (c : Dev nD) : (VA m c (Proc.devRef .tc main_arg5) : S64x1.Idx → EReal) = m ((c.tc : Thread nD τ).loc main_arg5) := by
  unfold VA
  simp only [hostOps0, hostOps0_1, hostOps0_2, hostOps0_3, hostOps0_4, hostOps0_5, hostOps0_6, hostOps0_7, List.flatten_cons, List.flatten_nil, List.append_nil, List.cons_append, List.nil_append]
  after_results_simp

set_option maxHeartbeats 8000000 in
theorem VA_arg6 (c : Dev nD) : (VA m c (Proc.devRef .tc main_arg6) : S1.Idx → EReal) = m ((c.tc : Thread nD τ).loc main_arg6) := by
  unfold VA
  simp only [hostOps0, hostOps0_1, hostOps0_2, hostOps0_3, hostOps0_4, hostOps0_5, hostOps0_6, hostOps0_7, List.flatten_cons, List.flatten_nil, List.append_nil, List.cons_append, List.nil_append]
  after_results_simp

end Cert.KernelIdeal.Host

end
-- ==== Proof.KerTable.lean ====
/-
  The table of 608 embeddings, read at a row.

  Each of the three weight-matrix rows a table row adds is taken at a start index inside the matrix (NumPy's
  negative-index rule and the clamp do nothing there), so table row k is the embedding of the label triple that k
  combines; the 16-row replica, the change of float format and the reshape in between move no value.
-/
import proofs.«414910_j50800873177305_3_alg».proof.Proof.KerIds

set_option maxRecDepth 16384
noncomputable section
namespace Cert.KernelIdeal.Host
open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- Rows of the weight matrix taken at a column of 608 start indices, read at (k, j). -/
theorem rows608 (W1 : S46x64.Idx → EReal) (idx : IVec S608x1 32) (k : Fin 608) (j : Fin 64) :
    Host.gather gather_S46x64_S608x1_S608x64_1_0_n_n_0_1_164 W1 idx (ix2 k j)
      = W1 (ix2 ⟨min (idx (ix2 k (0 : Fin 1))).toInt.toNat 45, by omega⟩ j) :=
  Cert.RowGather.gather_rows_apply (T := 46) (C := 64) (N := 608) (by norm_num) _ W1 idx k j

/-- A start index  a  in [0, 46), put through NumPy's negative-index rule, broadcast to a column, and used to take a row:
    row  a . -/
theorem take_row (W1 : S46x64.Idx → EReal) (x : IVec S608 32) (k : Fin 608) (j : Fin 64) (r : ℕ)
    (hx : (x (ix1 k)).toNat = r) (hr : r < 46) :
    Host.gather gather_S46x64_S608x1_S608x64_1_0_n_n_0_1_164 W1
        (broadcastInDim S608x1 ![0] bcast_S608_S608x1_0
          (select (cmpi .slt x (broadcastInDim S608 ![] bcast_S_S608 (constantI S_ 32 0#32)))
            (addi x (broadcastInDim S608 ![] bcast_S_S608 (constantI S_ 32 46#32))) x)) (ix2 k j)
      = Cert.EdgeEmb.rowOf W1 r j := by
  rw [rows608, Cert.EdgeEmb.rowOf_lt W1 r hr j]
  congr 1
  have hidx : (broadcastInDim S608x1 ![0] bcast_S608_S608x1_0
          (select (cmpi .slt x (broadcastInDim S608 ![] bcast_S_S608 (constantI S_ 32 0#32)))
            (addi x (broadcastInDim S608 ![] bcast_S_S608 (constantI S_ 32 46#32))) x)) (ix2 k (0 : Fin 1))
      = Scalar.select (IntOp.cmpi .slt (x (ix1 k)) 0#32) (IntOp.addi (x (ix1 k)) 46#32) (x (ix1 k)) := by
    refine (broadcastInDim_apply ![0] _ _ (ix2 k (0 : Fin 1)) (ix1 k) (fun a => ?_)).trans rfl
    match a with
    | ⟨0, _⟩ => show k.val = if (608 : ℕ) = 1 then 0 else k.val; simp
  funext a
  match a with
  | ⟨0, _⟩ =>
    apply Fin.ext
    show min (_ : BitVec 32).toInt.toNat 45 = r
    rw [hidx]
    exact (Cert.RowGather.wrap_clamp (x (ix1 k)) 46#32 46 (by omega) (by norm_num)).trans hx
  | ⟨1, _⟩ => rfl

set_option maxHeartbeats 8000000 in
/-- THE TABLE AT (r, k): the embedding of the label triple that k combines. -/
theorem tb_at (c : Dev nD) (r : Fin 16) (k : Fin 608) :
    (V (F := Ideal) m c main_v85 : S16x608.Idx → EReal) (ix2 r k)
      = Cert.EdgeEmb.emb (m ((c.tc : Thread nD τ).loc main_arg3)) (m ((c.tc : Thread nD τ).loc main_arg4))
          (m ((c.tc : Thread nD τ).loc main_arg5)) (m ((c.tc : Thread nD τ).loc main_arg6))
          (k.val / 16) (k.val / 4 % 4) (k.val % 4) := by
  show V0 (F := Ideal) m c (Proc.devRef .tc main_v85) (ix2 r k) = _
  rw [V0_eq m c]
  simp only [hostOps0_8]
  after_results_simp
  rw [ids_e m c, ids_h m c, ids_t m c, VA_arg3 m c, VA_arg4 m c, VA_arg5 m c, VA_arg6 m c]
  refine (broadcastInDim_apply ![0, 1] _ _ (ix2 r k) (ix2 (0 : Fin 1) k) (fun a => ?_)).trans ?_
  · match a with
    | ⟨0, _⟩ => simp
    | ⟨1, _⟩ => show k.val = if (608 : ℕ) = 1 then 0 else k.val; simp
  simp only [truncf, Ideal.truncf_def]
  refine (shapeCast_apply (t := (⟨2, ![1, 608]⟩ : Shape)) _ _ (ix2 (0 : Fin 1) k) (ix2 k (0 : Fin 1)) ?_).trans ?_
  · show ((⟨2, ![608, 1]⟩ : Shape).rowMajor (ix2 k (0 : Fin 1))).val = ((⟨2, ![1, 608]⟩ : Shape).rowMajor (ix2 (0 : Fin 1) k)).val
    rw [Shape.rowMajor_val_two, Shape.rowMajor_val_two]; show k.val * 1 + 0 = 0 * 608 + k.val; omega
  refine (Cert.GeluHead.host_head _ rfl _ _ _ _ _ _ _ _ _ _ _ _ k).trans ?_
  unfold Cert.EdgeEmb.emb
  congr 1
  funext j
  have hk := k.isLt
  rw [take_row _ _ k j (k.val / 16) (by
      show (BitVec.ofNat 32 (k.val / 16)).toNat = k.val / 16
      rw [BitVec.toNat_ofNat]; omega) (by omega),
    take_row _ _ k j (38 + k.val / 4 % 4) (by
      show (38#32 + BitVec.ofNat 32 (k.val / 4 % 4)).toNat = 38 + k.val / 4 % 4
      rw [BitVec.toNat_add, BitVec.toNat_ofNat, BitVec.toNat_ofNat]; omega) (by omega),
    take_row _ _ k j (42 + k.val % 4) (by
      show (42#32 + BitVec.ofNat 32 (k.val % 4)).toNat = 42 + k.val % 4
      rw [BitVec.toNat_add, BitVec.toNat_ofNat, BitVec.toNat_ofNat]; omega) (by omega)]

end Cert.KernelIdeal.Host

end
-- ==== Proof.LibHops.lean ====
/-
  Message passing by repeated scatter-add, on the extended reals.

  A scatter-add into a zero array gives, at each node, the sum of the updates that land on it.  Such a sum is additive
  in the updates (a finite sum of sums is the sum of the two sums, in any commutative monoid: nothing has to be
  finite), so the hop  a ↦ S (a[src] + e)  is  a ↦ S (a[src]) + S e :  the edge term  S e  can be added once per hop
  instead of being gathered along every edge.  Four hops from the zero array, written either way, are one array.
-/
import Idealize.ShloMosaic.PureOps.Ideal
import Idealize.ShloMosaic.Lib.ValueIdx

noncomputable section

open Idealize.ShloMosaic

namespace Cert.Hops

variable {s si u sg : Shape} {w w' : ℕ}

/-- A scatter-add into an array of zeros is additive in its updates. -/
theorem scatterAdd_add (d : ScatterDims s si u) (z : FVec Ideal s .f32) (hz : ∀ i, z i = 0) (idx : IVec si w)
    (a b : FVec Ideal u .f32) :
    Host.scatterAdd d z idx (addf a b) = addf (Host.scatterAdd d z idx a) (Host.scatterAdd d z idx b) := by
  funext i
  show Ideal.hostScatterAdd d z idx (addf a b) i = Ideal.hostScatterAdd d z idx a i + Ideal.hostScatterAdd d z idx b i
  unfold Ideal.hostScatterAdd
  rw [hz i, zero_add, zero_add, zero_add]
  exact Finset.sum_add_distrib

/-- Gathering from an array of zeros and adding: the other summand. -/
theorem gather_zero_add (g : GatherDims s sg u) (z : FVec Ideal s .f32) (hz : ∀ i, z i = 0) (gi : IVec sg w')
    (e : FVec Ideal u .f32) : addf (Host.gather g z gi) e = e := by
  funext j
  show z _ + e j = e j
  rw [hz, zero_add]

/-- Four hops  a ↦ S (a[src] + e)  from the zero array. -/
def hopsR (d : ScatterDims s si u) (g : GatherDims s sg u) (z : FVec Ideal s .f32) (di : IVec si w) (gi : IVec sg w')
    (e : FVec Ideal u .f32) : FVec Ideal s .f32 :=
  Host.scatterAdd d z di (addf (Host.gather g (Host.scatterAdd d z di (addf (Host.gather g
    (Host.scatterAdd d z di (addf (Host.gather g (Host.scatterAdd d z di (addf (Host.gather g z gi) e)) gi) e)) gi) e)) gi) e)

/-- The edge term  S e  and then three hops  a ↦ S (a[src]) + S e . -/
def hopsK (d : ScatterDims s si u) (g : GatherDims s sg u) (z : FVec Ideal s .f32) (di : IVec si w) (gi : IVec sg w')
    (e : FVec Ideal u .f32) : FVec Ideal s .f32 :=
  addf (Host.scatterAdd d z di (Host.gather g (addf (Host.scatterAdd d z di (Host.gather g
    (addf (Host.scatterAdd d z di (Host.gather g (Host.scatterAdd d z di e) gi)) (Host.scatterAdd d z di e)) gi))
    (Host.scatterAdd d z di e)) gi)) (Host.scatterAdd d z di e)

/-- Four hops  a ↦ S (a[src] + e)  from zero are three hops  a ↦ S (a[src]) + S e  from  S e . -/
theorem four_hops (d : ScatterDims s si u) (g : GatherDims s sg u) (z : FVec Ideal s .f32) (hz : ∀ i, z i = 0)
    (di : IVec si w) (gi : IVec sg w') (e : FVec Ideal u .f32) :
    hopsR d g z di gi e = hopsK d g z di gi e := by
  unfold hopsR hopsK
  rw [gather_zero_add g z hz gi e, scatterAdd_add d z hz di, scatterAdd_add d z hz di, scatterAdd_add d z hz di]

end Cert.Hops

end
-- ==== Proof.KerTail.lean ====
/-
  The kernel's program around its launch, as terms of the arguments.

  Before the launch: the edge list's two rows (sources, targets), the node types gathered at both ends, and the
  combined label  16 · edge type + 4 · source type + target type  of every edge, laid out as one row.  After the
  launch: the launch's output row, reshaped to a column, is scatter-added to the target nodes once, and three hops
  a ↦ S (a[src]) + S e  follow.
-/
import proofs.«414910_j50800873177305_3_alg».proof.Proof.Gen.KernelIdeal.Frame
import Idealize.ShloMosaic.Lib.StableHlo.Run
import Idealize.ShloMosaic.Lib.ValueIdx
import Idealize.ShloMosaic.Lib.Pipeline.Value
import proofs.«414910_j50800873177305_3_alg».proof.Proof.LibHops

set_option maxRecDepth 16384

noncomputable section

namespace Cert.KernelIdeal.Tail

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The sources of the edges: row 0 of the edge list. -/
def srcK (c : Dev nD) : IVec S1600000 32 :=
  shapeCast S1600000 (extractStridedSlice S1x1600000 ![0, 0] (m ((c.tc : Thread nD τ).loc main_arg0)) slices_S2x1600000_S1x1600000_0_0) shapeCasts_S1x1600000_S1600000
/-- The targets of the edges: row 1 of the edge list. -/
def dstK (c : Dev nD) : IVec S1600000 32 :=
  shapeCast S1600000 (extractStridedSlice S1x1600000 ![1, 0] (m ((c.tc : Thread nD τ).loc main_arg0)) slices_S2x1600000_S1x1600000_1_0) shapeCasts_S1x1600000_S1600000

/-- NumPy's negative-index rule for an array of 100000 nodes, and the result as a column of start indices. -/
def wrapCol (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- The node type at each edge's source, and at its target. -/
def hdK (c : Dev nD) : IVec S1600000 32 :=
  Host.gather gather_S100000_S1600000x1_S1600000_n_0_n_n_0_1_1 (m ((c.tc : Thread nD τ).loc main_arg2)) (wrapCol (srcK m c))
def tlK (c : Dev nD) : IVec S1600000 32 :=
  Host.gather gather_S100000_S1600000x1_S1600000_n_0_n_n_0_1_1 (m ((c.tc : Thread nD τ).loc main_arg2)) (wrapCol (dstK m c))

/-- The buffers after the launch: the launch's arrays at what the run left, every other buffer as before it. -/
abbrev W (c : Dev nD) : Valuation τ sig (Elt Ideal) :=
  Pipeline.withArrays (cfgs 0).spec c (V0 m c) (fun w => (dats m 0 c).arrAt w (cfgs 0).N)

/-- The sources, the targets and the launch's output as the lines after the launch read them. -/
def srcW (c : Dev nD) : IVec S1600000 32 := W m c (Proc.devRef .tc main_v1)
def dstW (c : Dev nD) : IVec S1600000 32 := W m c (Proc.devRef .tc main_v3)
def outW (c : Dev nD) : FVec Ideal S1x1600000 .f32 := W m c (Proc.devRef .tc main_v86)

/-- The edge embeddings as a column. -/
def embW (c : Dev nD) : FVec Ideal S1600000x1 .f32 :=
  fun i => shapeCast main_v87.ty.shape (outW m c) shapeCasts_S1x1600000_S1600000x1 i

set_option maxHeartbeats 8000000 in
/-- THE RESULT of the kernel's program: the edge term and three hops, over what the lines after the launch read. -/
theorem tail_eq (c : Dev nD) :
    (Pipeline.afterTail₀ cfgs (dats (F := Ideal) m) 0 (V0 m) [hostOps1] c main_v123 : S100000x1.Idx → EReal)
      = Cert.Hops.hopsK scatter_S100000x1_S1600000x1_S1600000x1_1_0_0_1 gather_S100000x1_S1600000x1_S1600000x1_1_0_n_n_0_1_11
          (broadcastInDim S100000x1 ![] bcast_S_S100000x1 (constant S_ .f32 0x00000000#32))
          (broadcastInDim S1600000x1 ![0] bcast_S1600000_S1600000x1_0 (dstW m c)) (wrapCol (srcW m c)) (embW m c) := by
  unfold Pipeline.afterTail₀
  simp only [hostOps1, List.flatten_cons, List.flatten_nil, List.append_nil]
  after_results_simp
  rfl

set_option maxHeartbeats 8000000 in
/-- The lines after the launch read the sources as the lines before it made them. -/
theorem srcW_eq (c : Dev nD) : srcW m c = srcK m c := by
  unfold srcW srcK
  show Pipeline.withArrays (cfgs 0).spec c (V0 m c) (fun w => (dats m 0 c).arrAt w (cfgs 0).N) (Proc.devRef .tc main_v1) = _
  rw [Pipeline.withArrays_of_ne _ c (V0 m c) _ main_v1 (by exact (by decide : ∀ w, Pipeline.arrRef spec0 w ≠ main_v1))]
  dsimp only [V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 8000000 in
theorem dstW_eq (c : Dev nD) : dstW m c = dstK m c := by
  unfold dstW dstK
  show Pipeline.withArrays (cfgs 0).spec c (V0 m c) (fun w => (dats m 0 c).arrAt w (cfgs 0).N) (Proc.devRef .tc main_v3) = _
  rw [Pipeline.withArrays_of_ne _ c (V0 m c) _ main_v3 (by exact (by decide : ∀ w, Pipeline.arrRef spec0 w ≠ main_v3))]
  dsimp only [V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The launch's output row after the launch is what the run left in it. -/
theorem outW_eq (c : Dev nD) : outW m c = ((dats (F := Ideal) m 0 c).arrAt 2 cfg0.N : S1x1600000.Idx → EReal) := by
  unfold outW
  exact Pipeline.withArrays_arr spec0 launch0.win.arr_inj c (V0 m c) (fun w => (dats (F := Ideal) m 0 c).arrAt w (cfgs 0).N) 2

set_option maxHeartbeats 8000000 in
/-- THE ROW OF COMBINED LABELS the launch reads:  16 · edge type + 4 · source type + target type , edge by edge. -/
theorem ix_eq (c : Dev nD) :
    (V (F := Ideal) m c main_v24 : S1x1600000.Idx → BitVec 32)
      = shapeCast S1x1600000
          (addi (addi (muli (m ((c.tc : Thread nD τ).loc main_arg1)) (broadcastInDim S1600000 ![] bcast_S_S1600000 (constantI S_ 32 16#32)))
            (muli (hdK m c) (broadcastInDim S1600000 ![] bcast_S_S1600000 (constantI S_ 32 4#32)))) (tlK m c))
          shapeCasts_S1600000_S1x1600000 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

end Cert.KernelIdeal.Tail

end
-- ==== Proof.LibOneHot.lean ====
/-
  A table lookup written as a matrix product with a one-hot matrix.

  For a row of 32-bit indices  idx[0, q]  and a table of R rows and K columns, the matrix  oh[k, q] = 1  if
  idx[0, q] = k  and  0  otherwise, and the product  table · oh  has at (r, q) the sum over k of  table[r, k] · oh[k, q] :
  every term but the one at  k = idx[0, q]  has a zero factor (and  0 · x = 0  for every extended real), so the sum
  is  table[r, idx[0, q]]  when the index is below K.  Row 0 of the product is what the kernel stores.
-/
import Idealize.ShloMosaic.PureOps.Ideal
import Idealize.ShloMosaic.PureOps.Ideal.Laws
import Idealize.ShloMosaic.Lib.ValueIdx
import Idealize.ShloMosaic.Lib.Pipeline.Value
import proofs.«414910_j50800873177305_3_alg».proof.Proof.LibMlp

noncomputable section

open Idealize.ShloMosaic Idealize.ShloMosaic.ValueIdx

namespace Cert.OneHot

/-- THE FACTOR OF ONE TERM: the comparison bit of two words, widened to a word and read as a signed integer, is the real
    1 when the words are equal and the real 0 when they are not. -/
theorem word_factor (a b : BitVec 32) :
    (Scalar.sitofp (F := Ideal) .f32 ((IntOp.cmpi .eq a b).setWidth 32) : EReal) = if a = b then 1 else 0 := by
  rw [Ideal.scalar_sitofp_def]
  by_cases h : a = b
  · subst h
    simp [IntOp.cmpi]
  · have hb : (a == b) = false := by simpa using h
    simp [IntOp.cmpi, h, hb]

/-- A one-row array of any element type broadcast down the rows, read at (p, q), is its entry q. -/
theorem bcast_row_any {α : Type} {N H : ℕ} (hb : (⟨2, ![1, H]⟩ : Shape).Broadcasts ⟨2, ![N, H]⟩)
    (x : (⟨2, ![1, H]⟩ : Shape).Idx → α) (p : Fin N) (q : Fin H) :
    broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

/-- ONE ENTRY OF THE ONE-HOT MATRIX: at (k, q) it is 1 when the index word of lane q is the word of k, and 0 otherwise.
    The reshapes to the same shape are the identity, the broadcast reads lane q of the index row, and the row counter
    at (k, q) is the word of k. -/
theorem oh_entry
    (hsc1 : (⟨2, ![1, 2560]⟩ : Shape).ShapeCasts ⟨2, ![1, 2560]⟩)
    (hio : (⟨2, ![608, 2560]⟩ : Shape).Iotas .tc 32 [0])
    (hbc : (⟨2, ![1, 2560]⟩ : Shape).Broadcasts ⟨2, ![608, 2560]⟩)
    (hlt : 1 < 32) (hbits : FTy.bits .bf16 < FTy.bits .f32)
    (v0 : IVec ⟨2, ![1, 2560]⟩ 32) (k : Fin 608) (q : Fin 2560) :
    (truncf .bf16 (sitofp .f32 (extui 32 (cmpi .eq
          (broadcastTo (⟨2, ![608, 2560]⟩ : Shape) (shapeCast (⟨2, ![1, 2560]⟩ : Shape) (shapeCast (⟨2, ![1, 2560]⟩ : Shape) v0 hsc1) hsc1) hbc)
          (iota .tc (⟨2, ![608, 2560]⟩ : Shape) 32 [0] hio)) hlt)) hbits : FVec Ideal ⟨2, ![608, 2560]⟩ .bf16) (ix2 k q)
    = if v0 (ix2 0 q) = BitVec.ofNat 32 k.val then (1 : EReal) else 0 := by
  rw [shapeCast_self, shapeCast_self]
  rw [truncf_apply, sitofp_apply, extui_apply]
  show FloatOps.sitofp .f32 ((IntOp.cmpi .eq (broadcastTo (⟨2, ![608, 2560]⟩ : Shape) v0 hbc (ix2 k q))
      (iota .tc (⟨2, ![608, 2560]⟩ : Shape) 32 [0] hio (ix2 k q))).setWidth 32) = _
  rw [bcast_row_any hbc v0 k q, iota_single_apply]
  exact word_factor _ _

/-- THE BODY'S VALUE AT A LANE: row 0 of  table · onehot(idx) , read at lane `q`, is the table's row 0 at column
    `idx[0, q]`, when that index is below the table's width. -/
theorem lookup_row0
    (hsc1 : (⟨2, ![1, 2560]⟩ : Shape).ShapeCasts ⟨2, ![1, 2560]⟩)
    (hio : (⟨2, ![608, 2560]⟩ : Shape).Iotas .tc 32 [0])
    (hbc : (⟨2, ![1, 2560]⟩ : Shape).Broadcasts ⟨2, ![608, 2560]⟩)
    (hlt : 1 < 32) (hbits : FTy.bits .bf16 < FTy.bits .f32)
    (hsc2 : (⟨2, ![16, 608]⟩ : Shape).ShapeCasts ⟨2, ![16, 608]⟩)
    (d : DotDims ⟨2, ![16, 608]⟩ ⟨2, ![608, 2560]⟩ ⟨2, ![16, 2560]⟩) (hd : d = DotDims.plain 16 608 2560)
    (hsl : (⟨2, ![16, 2560]⟩ : Shape).Slices ![0, 0] ⟨2, ![1, 2560]⟩)
    (v0 : IVec ⟨2, ![1, 2560]⟩ 32) (v9 : FVec Ideal ⟨2, ![16, 608]⟩ .bf16) (q : Fin 2560)
    (hq : (v0 (ix2 0 q)).toNat < 608) :
    extractStridedSlice (⟨2, ![1, 2560]⟩ : Shape) ![0, 0]
      (matmul d none (shapeCast (⟨2, ![16, 608]⟩ : Shape) v9 hsc2)
        (truncf .bf16 (sitofp .f32 (extui 32 (cmpi .eq
          (broadcastTo (⟨2, ![608, 2560]⟩ : Shape) (shapeCast (⟨2, ![1, 2560]⟩ : Shape) (shapeCast (⟨2, ![1, 2560]⟩ : Shape) v0 hsc1) hsc1) hbc)
          (iota .tc (⟨2, ![608, 2560]⟩ : Shape) 32 [0] hio)) hlt)) hbits)
        (constant (⟨2, ![16, 2560]⟩ : Shape) .f32 0x00000000#32)) hsl (ix2 0 q)
    = v9 (ix2 0 ⟨(v0 (ix2 0 q)).toNat, hq⟩) := by
  subst hd
  rw [shapeCast_self v9 hsc2]
  -- row 0 of the product at lane q is the product at (0, q)
  refine (extractStridedSlice_apply ![0, 0] _ hsl (ix2 0 q) (ix2 0 q) fun a => ?_).trans ?_
  · match a with
    | ⟨0, _⟩ => rfl
    | ⟨1, _⟩ => show q.val = 0 + q.val; omega
  -- the product at (0, q) is the sum over k of  table[0, k] · oh[k, q]
  rw [show matmul (DotDims.plain 16 608 2560) none v9 _ (constant ⟨2, ![16, 2560]⟩ .f32 0x00000000#32) (ix2 0 q) = _ from
    Ideal.matmul_constant_zero_apply (DotDims.plain 16 608 2560) none v9 _ (ix2 0 q)]
  rw [Cert.Mlp.plain_sum v9 _ (ix2 0 q)]
  -- only the term at  k = idx[0, q]  survives
  rw [Finset.sum_eq_single (⟨(v0 (ix2 0 q)).toNat, hq⟩ : Fin 608)]
  · -- that term's factor is 1: the word of the index's value is the index
    show v9 (ix2 0 ⟨(v0 (ix2 0 q)).toNat, hq⟩) * _ = _
    rw [oh_entry hsc1 hio hbc hlt hbits v0 ⟨(v0 (ix2 0 q)).toNat, hq⟩ q]
    rw [if_pos (by simp), mul_one]
  · -- every other term's factor is 0: a k below 608 whose word is the index has the index's value
    intro k _ hk
    show v9 (ix2 0 k) * _ = 0
    rw [oh_entry hsc1 hio hbc hlt hbits v0 k q]
    rw [if_neg, mul_zero]
    intro he
    apply hk
    apply Fin.ext
    show k.val = (v0 (ix2 0 q)).toNat
    rw [he, BitVec.toNat_ofNat]
    have := k.isLt
    omega
  · intro h; exact absurd (Finset.mem_univ _) h

end Cert.OneHot

end
-- ==== Proof.KerRegion.lean ====
/-
  What the kernel leaves in its output array.

  The grid has 625 points; point t works on lanes [2560 t, 2560 t + 2560) of the row of combined labels and writes the
  same lanes of the output row.  Its body looks each lane's label up in row 0 of the (replicated) table by a product
  with a one-hot matrix.  The 625 blocks tile the output row, so after the run the output at lane e is the table at
  the label of lane e.
-/
import proofs.«414910_j50800873177305_3_alg».proof.Proof.Gen.KernelIdeal.Frame
import Idealize.ShloMosaic.Lib.Pipeline.Value
import Idealize.ShloMosaic.Lib.ValueIdx
import proofs.«414910_j50800873177305_3_alg».proof.Proof.LibOneHot

set_option maxRecDepth 16384

noncomputable section

namespace Cert.KernelIdeal.Region

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The row of combined labels, one per edge, as the region finds it. -/
abbrev ixArr (c : Dev nD) : IVec S1x1600000 32 := V (F := Ideal) m c main_v24
/-- The table, replicated over 16 rows, as the region finds it. -/
abbrev tbArr (c : Dev nD) : FVec Ideal S16x608 .bf16 := V (F := Ideal) m c main_v85

/-- The zero offsets of a whole-buffer access. -/
theorem zero_offsets : (![0, 0] : Fin 2 → Nat) = fun _ => 0 := funext fun a => by fin_cases a <;> rfl

/-- THE BLOCK INDICES, decided over the 625 points: the label window and the output window sit at block (0, t), the
    table window at block (0, 0). -/
theorem block_indices : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- What the output row ends holding: at lane e, row 0 of the table at the label of lane e. -/
abbrev looked (c : Dev nD) (hIx : ∀ e : Fin 1600000, (ixArr m c (ix2 0 e)).toNat < 608) : S1x1600000.Idx → EReal :=
  fun i => tbArr m c (ix2 0 ⟨(ixArr m c (ix2 0 (i 1))).toNat, hIx (i 1)⟩)

/-- THE BODY AT A LANE: for any block of labels and any table, what the body stores at lane q is row 0 of the table at
    the label of lane q, when that label is below 608: the product with the one-hot matrix of the labels. -/
theorem body_lane (v0 : IVec S1x2560 32) (v9 : FVec Ideal S16x608 .bf16) (q : Fin 2560) (hq : (v0 (ix2 0 q)).toNat < 608) :
    k0_pay1 (F := Ideal) v0 v9 (ix2 0 q) = v9 (ix2 0 ⟨(v0 (ix2 0 q)).toNat, hq⟩) := by
  unfold k0_pay1
  exact Cert.OneHot.lookup_row0 shapeCasts_S1x2560_S1x2560 iota_S608x2560_d0_w32 broadcasts_S1x2560_S608x2560 natLt_1_32
    bitsLt_bf16_f32 shapeCasts_S16x608_S16x608 dot_S16x608_S608x2560_S16x2560_1_0_0_1_n_n rfl slices_S16x2560_o0_0_S1x2560 v0 v9 q hq

/-- The block of labels at point t, read at lane q, is the label row at lane 2560 t + q. -/
theorem labelBlock_apply (c : Dev nD) (t : Fin cfg0.N) (q : Fin 2560) (e : Fin 1600000) (he : e.val = 2560 * t.val + q.val) :
    (iblk (F := Ideal) m c 0 t : IVec S1x2560 32) (ix2 0 q) = ixArr m c (ix2 0 e) := by
  obtain ⟨e0, e1, -⟩ := block_indices t
  unfold iblk
  rw [View.read_apply]
  show V m c main_v24 _ = V m c main_v24 _
  congr 1
  funext a
  apply Fin.ext
  match a with
  | ⟨0, _⟩ => show win0_0.index t (0 : Fin 2) * 1 + 1 * 0 = 0; rw [e0]
  | ⟨1, _⟩ => show win0_0.index t (1 : Fin 2) * 2560 + 1 * q.val = e.val; rw [e1, he]; omega

/-- The table's block is the whole table at every point. -/
theorem tableBlock_apply (c : Dev nD) (t : Fin cfg0.N) (k : Fin 608) :
    (iblk (F := Ideal) m c 1 t : FVec Ideal S16x608 .bf16) (ix2 0 k) = tbArr m c (ix2 0 k) := by
  obtain ⟨-, -, e2, e3, -⟩ := block_indices t
  unfold iblk
  rw [View.read_apply]
  show V m c main_v85 _ = V m c main_v85 _
  congr 1
  funext a
  apply Fin.ext
  match a with
  | ⟨0, _⟩ => show win0_1.index t (0 : Fin 2) * 16 + 1 * 0 = 0; rw [e2]
  | ⟨1, _⟩ => show win0_1.index t (1 : Fin 2) * 608 + 1 * k.val = k.val; rw [e3]; omega

/-- POINT t AT LANE q: the body on point t's blocks, read at lane q, is the looked-up row at any array index whose lane is
    2560 t + q. -/
theorem point_lane (c : Dev nD) (hIx : ∀ e : Fin 1600000, (ixArr m c (ix2 0 e)).toNat < 608) (t : Fin cfg0.N) (q : Fin 2560)
    (i : S1x1600000.Idx) (hi : (i 1).val = 2560 * t.val + q.val) :
    k0_pay1 (F := Ideal) (iblk (F := Ideal) m c 0 t : IVec S1x2560 32) (iblk (F := Ideal) m c 1 t : FVec Ideal S16x608 .bf16) (ix2 0 q)
      = looked m c hIx i := by
  have h0 : (iblk (F := Ideal) m c 0 t : IVec S1x2560 32) (ix2 0 q) = ixArr m c (ix2 0 (i 1)) := labelBlock_apply m c t q (i 1) hi
  have hq : ((iblk (F := Ideal) m c 0 t : IVec S1x2560 32) (ix2 0 q)).toNat < 608 := by rw [h0]; exact hIx (i 1)
  refine (body_lane (iblk (F := Ideal) m c 0 t : IVec S1x2560 32) (iblk (F := Ideal) m c 1 t : FVec Ideal S16x608 .bf16) q hq).trans ?_
  refine (tableBlock_apply m c t ⟨((iblk (F := Ideal) m c 0 t : IVec S1x2560 32) (ix2 0 q)).toNat, hq⟩).trans ?_
  show tbArr m c (ix2 0 _) = tbArr m c (ix2 0 _)
  refine congrArg (fun k : Fin 608 => tbArr m c (ix2 0 k)) (Fin.ext ?_)
  show ((iblk (F := Ideal) m c 0 t : IVec S1x2560 32) (ix2 0 q)).toNat = (ixArr m c (ix2 0 (i 1))).toNat
  rw [h0]

/-- WHAT POINT t WRITES BACK is block t of the looked-up row. -/
theorem written_block (c : Dev nD) (hIx : ∀ e : Fin 1600000, (ixArr m c (ix2 0 e)).toNat < 608) (t : Fin cfg0.N) :
    (dats (F := Ideal) m 0 c).flushed 2 t = ((cfg0.win 2).blk t).view.read (Elt Ideal) (looked m c hIx) := by
  show (cfg0.win 2).cut (grid0.coords t) ((dats m 0 c).after 2 t) = _
  rw [after0_2]
  unfold out0_2
  rw [View.canon_unit_zero zero_offsets]
  simp only [View.ld_unit_zero (S := S1x2560) zero_offsets, View.ld_unit_zero (S := S16x608) zero_offsets]
  funext j
  -- the block has one row and 2560 lanes
  have hj0 : (j 0).val = 0 := by have : (j 0).val < 1 := (j 0).isLt; omega
  have hj1 : (j 1).val < 2560 := (j 1).isLt
  obtain ⟨-, -, -, -, e4, e5⟩ := block_indices t
  show k0_pay1 (iblk m c 0 t) (iblk m c 1 t) ((win0 2).xinj (grid0.coords t) j) = looked m c hIx (((cfg0.win 2).blk t).view.emb j)
  have hx : (win0 2).xinj (grid0.coords t) j = ix2 0 ⟨(j 1).val, hj1⟩ := by
    funext a; apply Fin.ext
    match a with
    | ⟨0, _⟩ => exact hj0
    | ⟨1, _⟩ => rfl
  rw [hx]
  -- lane j of block t is lane 2560 t + j of the row
  refine point_lane m c hIx t ⟨(j 1).val, hj1⟩ _ ?_
  show win0_2.index t (1 : Fin 2) * 2560 + 1 * (j 1).val = 2560 * t.val + (j 1).val
  rw [e5]; omega

/-- An index of the row is in point t's block iff each coordinate is in the block's range on its axis. -/
theorem mem_block (t : Fin cfg0.N) (i : S1x1600000.Idx) :
    i ∈ ((cfg0.win 2).blk t).view.set ↔ ∀ a : Fin 2, win0_2.index t a * S1x2560.size a ≤ (i a).val ∧ (i a).val < win0_2.index t a * S1x2560.size a + S1x2560.size a := by
  show i ∈ ((View.whole main_v86).slice (win0_2.rect t)).set ↔ _
  rw [View.set_slice_whole, Rect.mem_set_unit]
  exact Iff.rfl

/-- THE BLOCKS TILE THE ROW: lane e lies in the block of point e / 2560 (1600000 = 625 · 2560). -/
theorem lane_covered (i : S1x1600000.Idx) :
    ∃ t : Fin cfg0.N, (cfg0.win 2).flush t = true ∧ i ∈ ((cfg0.win 2).blk t).view.set := by
  have hi0 : (i 0).val < 1 := (i 0).isLt
  have hi1 : (i 1).val < 1600000 := (i 1).isLt
  have hN : cfg0.N = 625 := by decide
  have ht : (i 1).val / 2560 < cfg0.N := by rw [hN]; omega
  obtain ⟨-, -, -, -, e4, e5⟩ := block_indices ⟨(i 1).val / 2560, ht⟩
  refine ⟨⟨(i 1).val / 2560, ht⟩, flush0_2 _, ?_⟩
  rw [mem_block]
  intro a
  match a with
  | ⟨0, _⟩ =>
    show win0_2.index ⟨(i 1).val / 2560, ht⟩ (0 : Fin 2) * 1 ≤ (i 0).val ∧ (i 0).val < win0_2.index ⟨(i 1).val / 2560, ht⟩ (0 : Fin 2) * 1 + 1
    rw [e4]; omega
  | ⟨1, _⟩ =>
    show win0_2.index ⟨(i 1).val / 2560, ht⟩ (1 : Fin 2) * 2560 ≤ (i 1).val ∧ (i 1).val < win0_2.index ⟨(i 1).val / 2560, ht⟩ (1 : Fin 2) * 2560 + 2560
    rw [e5]
    show (i 1).val / 2560 * 2560 ≤ (i 1).val ∧ (i 1).val < (i 1).val / 2560 * 2560 + 2560
    omega

/-- THE OUTPUT ROW AFTER THE RUN: at lane e, the table's row 0 at the combined label of edge e (every label being
    below 608). -/
theorem final2 (c : Dev nD) (hIx : ∀ e : Fin 1600000, (ixArr m c (ix2 0 e)).toNat < 608) :
    (dats (F := Ideal) m 0 c).arrAt 2 cfg0.N
      = (fun i => tbArr m c (ix2 0 ⟨(ixArr m c (ix2 0 (i 1))).toNat, hIx (i 1)⟩) : S1x1600000.Idx → EReal) := by
  exact (dats (F := Ideal) m 0 c).arrAt_eq_of_cover 2 (looked m c hIx) (fun t _ => written_block m c hIx t) lane_covered

end Cert.KernelIdeal.Region

end
-- ==== Proof.KerValue.lean ====
/-
  The kernel's program computes the edge term and three hops over the SPECIFIED embeddings.

  Under the label ranges the combined label of edge e is  16 a + 4 b + c  with  a < 38 ,  b, c < 4  (no 32-bit
  overflow, and below 608); the launch's output at lane e is the table at that label; the table row there is the
  embedding of the triple the label combines, which is (a, b, c) again.  So the column the hops start from is the
  embedding of every edge's own label triple.
-/
import proofs.«414910_j50800873177305_3_alg».proof.Proof.KerTable
import proofs.«414910_j50800873177305_3_alg».proof.Proof.KerTail
import proofs.«414910_j50800873177305_3_alg».proof.Proof.KerRegion

set_option maxRecDepth 16384

noncomputable section

namespace Cert.KernelIdeal.KerValue

open Cert.KernelIdeal Cert.KernelIdeal.Gen Cert.KernelIdeal.Tail Cert.KernelIdeal.Region Cert.KernelIdeal.Host
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The edge types and the node types, as the program is launched with them. -/
abbrev etK (c : Dev nD) : IVec S1600000 32 := m ((c.tc : Thread nD τ).loc main_arg1)
abbrev ntK (c : Dev nD) : IVec S100000 32 := m ((c.tc : Thread nD τ).loc main_arg2)

/-- The specified column of edge embeddings: at edge e, the embedding of (edge type, source node type, target node type). -/
def EK (c : Dev nD) : FVec Ideal S1600000x1 .f32 := fun i =>
  Cert.EdgeEmb.emb (m ((c.tc : Thread nD τ).loc main_arg3)) (m ((c.tc : Thread nD τ).loc main_arg4))
    (m ((c.tc : Thread nD τ).loc main_arg5)) (m ((c.tc : Thread nD τ).loc main_arg6))
    (etK m c (ix1 (i 0))).toNat (hdK m c (ix1 (i 0))).toNat (tlK m c (ix1 (i 0))).toNat

/-- The combined label of three small words, computed in 32 bits, is the natural number  16 a + 4 b + c . -/
theorem combo_toNat (a b c : BitVec 32) (ha : a.toNat < 38) (hb : b.toNat < 4) (hc : c.toNat < 4) :
    (IntOp.addi (IntOp.addi (IntOp.muli a 16#32) (IntOp.muli b 4#32)) c).toNat = 16 * a.toNat + 4 * b.toNat + c.toNat := by
  simp only [IntOp.addi, IntOp.muli, BitVec.toNat_add, BitVec.toNat_mul, BitVec.toNat_ofNat]
  omega

/-- A gathered node type is some entry of the node-type array. -/
theorem hdK_lt (c : Dev nD) (h2 : ∀ n : S100000.Idx, (ntK m c n).toNat < 4) (j : S1600000.Idx) : (hdK m c j).toNat < 4 := h2 _
theorem tlK_lt (c : Dev nD) (h2 : ∀ n : S100000.Idx, (ntK m c n).toNat < 4) (j : S1600000.Idx) : (tlK m c j).toNat < 4 := h2 _

/-- The combined label of edge j, as the launch reads it. -/
theorem ix_at (c : Dev nD) (j : Fin 1600000) :
    ixArr m c (ix2 (0 : Fin 1) j)
      = IntOp.addi (IntOp.addi (IntOp.muli (etK m c (ix1 j)) 16#32) (IntOp.muli (hdK m c (ix1 j)) 4#32)) (tlK m c (ix1 j)) := by
  show (V (F := Ideal) m c main_v24 : S1x1600000.Idx → BitVec 32) (ix2 (0 : Fin 1) j) = _
  rw [ix_eq m c]
  exact shapeCast_apply _ _ (ix2 (0 : Fin 1) j) (ix1 j) (by
    rw [Shape.rowMajor_val_one, Shape.rowMajor_val_two]; show j.val = 0 * 1600000 + j.val; omega)

/-- THE KERNEL'S EMBEDDINGS ARE THE SPECIFIED ONES, under the label ranges. -/
theorem embW_eq (c : Dev nD) (h1 : ∀ e : S1600000.Idx, (etK m c e).toNat < 38) (h2 : ∀ n : S100000.Idx, (ntK m c n).toNat < 4) :
    embW m c = EK m c := by
  have hIx : ∀ e : Fin 1600000, (ixArr m c (ix2 (0 : Fin 1) e)).toNat < 608 := fun e => by
    rw [ix_at, combo_toNat _ _ _ (h1 _) (hdK_lt m c h2 _) (tlK_lt m c h2 _)]
    have := h1 (ix1 e); have := hdK_lt m c h2 (ix1 e); have := tlK_lt m c h2 (ix1 e); omega
  funext i
  obtain ⟨j, rfl⟩ : ∃ j : Fin 1600000, i = ix2 j (0 : Fin 1) :=
    ⟨i 0, (eq_ix2 i).trans (congrArg (ix2 (i 0)) (Fin.ext (Nat.lt_one_iff.mp (i 1).isLt)))⟩
  unfold embW EK
  refine (shapeCast_apply (outW m c) _ (ix2 j (0 : Fin 1)) (ix2 (0 : Fin 1) j) ?_).trans ?_
  · show ((⟨2, ![1, 1600000]⟩ : Shape).rowMajor (ix2 (0 : Fin 1) j)).val
      = ((⟨2, ![1600000, 1]⟩ : Shape).rowMajor (ix2 j (0 : Fin 1))).val
    rw [Shape.rowMajor_val_two, Shape.rowMajor_val_two]; show 0 * 1600000 + j.val = j.val * 1 + 0; omega
  rw [outW_eq m c, final2 m c hIx]
  show (V (F := Ideal) m c main_v85 : S16x608.Idx → EReal) (ix2 (0 : Fin 16) ⟨(ixArr m c (ix2 (0 : Fin 1) j)).toNat, hIx j⟩)
    = Cert.EdgeEmb.emb (m ((c.tc : Thread nD τ).loc main_arg3)) (m ((c.tc : Thread nD τ).loc main_arg4))
        (m ((c.tc : Thread nD τ).loc main_arg5)) (m ((c.tc : Thread nD τ).loc main_arg6))
        (etK m c (ix1 j)).toNat (hdK m c (ix1 j)).toNat (tlK m c (ix1 j)).toNat
  rw [tb_at m c]
  have hk : (ixArr m c (ix2 (0 : Fin 1) j)).toNat
      = 16 * (etK m c (ix1 j)).toNat + 4 * (hdK m c (ix1 j)).toNat + (tlK m c (ix1 j)).toNat := by
    rw [ix_at, combo_toNat _ _ _ (h1 _) (hdK_lt m c h2 _) (tlK_lt m c h2 _)]
  obtain ⟨p1, p2, p3⟩ := Cert.EdgeEmb.combo_parts (etK m c (ix1 j)).toNat (hdK m c (ix1 j)).toNat (tlK m c (ix1 j)).toNat
    (hdK_lt m c h2 _) (tlK_lt m c h2 _)
  show Cert.EdgeEmb.emb _ _ _ _ ((ixArr m c (ix2 (0 : Fin 1) j)).toNat / 16) ((ixArr m c (ix2 (0 : Fin 1) j)).toNat / 4 % 4)
    ((ixArr m c (ix2 (0 : Fin 1) j)).toNat % 4) = _
  rw [hk, p1, p2, p3]

/-- The kernel's program, run: its result is the edge term and three hops over the specified embeddings, and its
    arguments end unchanged. -/
theorem result_eq (c : Dev nD) (h1 : ∀ e : S1600000.Idx, (etK m c e).toNat < 38) (h2 : ∀ n : S100000.Idx, (ntK m c n).toNat < 4) :
    (Pipeline.afterTail₀ cfgs (dats (F := Ideal) m) 0 (V0 m) [hostOps1] c main_v123 : S100000x1.Idx → EReal)
      = Cert.Hops.hopsK scatter_S100000x1_S1600000x1_S1600000x1_1_0_0_1 gather_S100000x1_S1600000x1_S1600000x1_1_0_n_n_0_1_11
          (broadcastInDim S100000x1 ![] bcast_S_S100000x1 (constant S_ .f32 0x00000000#32))
          (broadcastInDim S1600000x1 ![0] bcast_S1600000_S1600000x1_0 (dstK m c)) (wrapCol (srcK m c)) (EK m c) := by
  rw [tail_eq m c, srcW_eq m c, dstW_eq m c, embW_eq m c h1 h2]

variable (ρ : Dev nD → PrngReg)

/-- The frame run with the result buffer named. -/
theorem run : θ_run defs (onTc (τ := τ) (main (F := Ideal))) ⟨m, fun _ => 0, ρ⟩ (fun r => ∀ c : Dev nD,
      r.2.mem ((c.tc : Thread nD τ).loc main_v123) = Pipeline.afterTail₀ cfgs (dats (F := Ideal) m) 0 (V0 m) [hostOps1] c main_v123
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).2 main_v123 (Pipeline.mem_restRefs_of main_v123 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KerValue

end
-- ==== Proof.RefEmb.lean ====
/-
  The reference's edge embedding, read at one edge.

  The reference gathers three rows of the first weight matrix per edge — at the edge's type, at 38 plus the node type of
  its source, at 42 plus the node type of its target — adds them and the bias, and applies the head.  With the labels
  in their ranges no index is negative or past the table, so NumPy's negative-index rule and the clamp do nothing, and
  the value at edge e is the embedding of its label triple.
-/
import proofs.«414910_j50800873177305_3_alg».proof.Proof.Gen.ReferenceIdeal.Run
import proofs.«414910_j50800873177305_3_alg».proof.Proof.LibGeluHead
import proofs.«414910_j50800873177305_3_alg».proof.Proof.LibRowGather
import proofs.«414910_j50800873177305_3_alg».proof.Proof.Spec

set_option maxRecDepth 16384

noncomputable section

namespace Cert.ReferenceIdeal.RefEmb

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

/-- The edge types. -/
abbrev ety (V0 : Valuation τ sig (Elt Ideal)) : IVec S1600000 32 := V0 (Proc.devRef .tc main_arg1)

/-- The node type at each edge's source: the node-type array gathered at the (wrapped, clamped) source indices. -/
def headTy (V0 : Valuation τ sig (Elt Ideal)) : IVec S1600000 32 :=
  Host.gather gather_S100000_S1600000x1_S1600000_n_0_n_n_0_1_1 (V0 (Proc.devRef .tc main_arg2)) (broadcastInDim S1600000x1 ![0] bcast_S1600000_S1600000x1_0 (select (cmpi .slt (res_main_v1 V0) (broadcastInDim S1600000 ![] bcast_S_S1600000 (constantI S_ 32 0#32))) (addi (res_main_v1 V0) (broadcastInDim S1600000 ![] bcast_S_S1600000 (constantI S_ 32 100000#32))) (res_main_v1 V0)))

/-- The node type at each edge's target. -/
def tailTy (V0 : Valuation τ sig (Elt Ideal)) : IVec S1600000 32 :=
  Host.gather gather_S100000_S1600000x1_S1600000_n_0_n_n_0_1_1 (V0 (Proc.devRef .tc main_arg2)) (broadcastInDim S1600000x1 ![0] bcast_S1600000_S1600000x1_0 (select (cmpi .slt (res_main_v3 V0) (broadcastInDim S1600000 ![] bcast_S_S1600000 (constantI S_ 32 0#32))) (addi (res_main_v3 V0) (broadcastInDim S1600000 ![] bcast_S_S1600000 (constantI S_ 32 100000#32))) (res_main_v3 V0)))

theorem v26_eq (V0 : Valuation τ sig (Elt Ideal)) :
    res_main_v26 V0 = addi (broadcastInDim S1600000 ![] bcast_S_S1600000 (constantI S_ 32 38#32)) (headTy V0) := rfl
theorem v36_eq (V0 : Valuation τ sig (Elt Ideal)) :
    res_main_v36 V0 = addi (broadcastInDim S1600000 ![] bcast_S_S1600000 (constantI S_ 32 42#32)) (tailTy V0) := rfl

/-- Rows of the weight matrix taken at a column of 1,600,000 start indices, read at (e, j): the row at the start index of
    edge e, signed and clamped into the table. -/
theorem rowsE (W1 : S46x64.Idx → EReal) (idx : IVec S1600000x1 32) (e : Fin 1600000) (j : Fin 64) :
    Host.gather gather_S46x64_S1600000x1_S1600000x64_1_0_n_n_0_1_164 W1 idx (ix2 e j)
      = W1 (ix2 ⟨min (idx (ix2 e 0)).toInt.toNat 45, by omega⟩ j) :=
  Cert.RowGather.gather_rows_apply (T := 46) (C := 64) (N := 1600000) (by norm_num) _ W1 idx e j

/-- A start index  a  in [0, 46), put through NumPy's negative-index rule, broadcast to a column, and used to take a row:
    row  a . -/
theorem take_row (W1 : S46x64.Idx → EReal) (x : IVec S1600000 32) (e : Fin 1600000) (j : Fin 64) (r : ℕ)
    (hx : (x (ix1 e)).toNat = r) (hr : r < 46) :
    Host.gather gather_S46x64_S1600000x1_S1600000x64_1_0_n_n_0_1_164 W1
        (broadcastInDim S1600000x1 ![0] bcast_S1600000_S1600000x1_0
          (select (cmpi .slt x (broadcastInDim S1600000 ![] bcast_S_S1600000 (constantI S_ 32 0#32)))
            (addi x (broadcastInDim S1600000 ![] bcast_S_S1600000 (constantI S_ 32 46#32))) x)) (ix2 e j)
      = Cert.EdgeEmb.rowOf W1 r j := by
  rw [rowsE, Cert.EdgeEmb.rowOf_lt W1 r hr j]
  congr 1
  -- the column of start indices read at (e, 0) is the wrapped index of edge e
  have hidx : (broadcastInDim S1600000x1 ![0] bcast_S1600000_S1600000x1_0
          (select (cmpi .slt x (broadcastInDim S1600000 ![] bcast_S_S1600000 (constantI S_ 32 0#32)))
            (addi x (broadcastInDim S1600000 ![] bcast_S_S1600000 (constantI S_ 32 46#32))) x)) (ix2 e 0)
      = Scalar.select (IntOp.cmpi .slt (x (ix1 e)) 0#32) (IntOp.addi (x (ix1 e)) 46#32) (x (ix1 e)) := by
    refine (broadcastInDim_apply ![0] _ _ (ix2 e (0 : Fin 1)) (ix1 e) (fun a => ?_)).trans rfl
    match a with
    | ⟨0, _⟩ => show e.val = if (1600000 : ℕ) = 1 then 0 else e.val; simp
  funext a
  match a with
  | ⟨0, _⟩ =>
    apply Fin.ext
    show min (_ : BitVec 32).toInt.toNat 45 = r
    rw [hidx]
    exact (Cert.RowGather.wrap_clamp (x (ix1 e)) 46#32 46 (by omega) (by norm_num)).trans hx
  | ⟨1, _⟩ => rfl

/-- The second start index at edge e is 38 plus the source's node type: no carry out of 32 bits for a type below 4. -/
theorem v26_at (V0 : Valuation τ sig (Elt Ideal)) (e : Fin 1600000) (h2 : (headTy V0 (ix1 e)).toNat < 4) :
    ((res_main_v26 V0 : IVec S1600000 32) (ix1 e)).toNat = 38 + (headTy V0 (ix1 e)).toNat := by
  rw [v26_eq]
  show (38#32 + headTy V0 (ix1 e)).toNat = _
  rw [BitVec.toNat_add]
  show (38 + (headTy V0 (ix1 e)).toNat) % 4294967296 = _
  omega

/-- The third start index at edge e is 42 plus the target's node type. -/
theorem v36_at (V0 : Valuation τ sig (Elt Ideal)) (e : Fin 1600000) (h3 : (tailTy V0 (ix1 e)).toNat < 4) :
    ((res_main_v36 V0 : IVec S1600000 32) (ix1 e)).toNat = 42 + (tailTy V0 (ix1 e)).toNat := by
  rw [v36_eq]
  show (42#32 + tailTy V0 (ix1 e)).toNat = _
  rw [BitVec.toNat_add]
  show (42 + (tailTy V0 (ix1 e)).toNat) % 4294967296 = _
  omega

/-- THE REFERENCE'S EMBEDDING AT EDGE e: the embedding of (edge type, source node type, target node type), when the
    three labels are in their ranges. -/
theorem emb_at (V0 : Valuation τ sig (Elt Ideal)) (e : Fin 1600000)
    (h1 : (ety V0 (ix1 e)).toNat < 38) (h2 : (headTy V0 (ix1 e)).toNat < 4) (h3 : (tailTy V0 (ix1 e)).toNat < 4) :
    (res_main_v70 V0 : S1600000x1.Idx → EReal) (ix2 e 0)
      = Cert.EdgeEmb.emb (V0 (Proc.devRef .tc main_arg3)) (V0 (Proc.devRef .tc main_arg4)) (V0 (Proc.devRef .tc main_arg5))
          (V0 (Proc.devRef .tc main_arg6)) (ety V0 (ix1 e)).toNat (headTy V0 (ix1 e)).toNat (tailTy V0 (ix1 e)).toNat := by
  unfold res_main_v70 res_main_v47
  -- the stage read at row e is the head of that row's hidden entries
  refine (Cert.GeluHead.host_head _ rfl _ _ _ _ _ _ _ _ _ _ _ _ e).trans ?_
  unfold Cert.EdgeEmb.emb
  congr 1
  funext j
  -- each of the three gathers takes a row inside the matrix: the edge type, 38 plus the source's type, 42 plus the target's
  rw [take_row _ _ e j (ety V0 (ix1 e)).toNat rfl (by omega),
    take_row _ _ e j (38 + (headTy V0 (ix1 e)).toNat) (v26_at V0 e h2) (by omega),
    take_row _ _ e j (42 + (tailTy V0 (ix1 e)).toNat) (v36_at V0 e h3) (by omega)]

end Cert.ReferenceIdeal.RefEmb

end
-- ==== Proof.RefValue.lean ====
/-
  The reference's result: four hops  a ↦ S (a[src] + e)  from the zero array over the specified edge embeddings,
  which are the edge term  S e  and three hops  a ↦ S (a[src]) + S e  (the hop law), stated as one function of the
  seven argument arrays.
-/
import proofs.«414910_j50800873177305_3_alg».proof.Proof.RefEmb
import proofs.«414910_j50800873177305_3_alg».proof.Proof.LibHops

set_option maxRecDepth 16384

noncomputable section

namespace Cert.ReferenceIdeal.RefValue

open Cert.ReferenceIdeal Cert.ReferenceIdeal.Gen Cert.ReferenceIdeal.Value Cert.ReferenceIdeal.RefEmb
open Idealize.ShloMosaic Idealize.ShloMosaic.TcCoe Idealize.SL.Sem Idealize.ShloMosaic.StableHlo Idealize.ShloMosaic.ValueIdx

/-- The sources and the targets of the edges: the two rows of the edge list. -/
def srcOf (x0 : IVec S2x1600000 32) : IVec S1600000 32 :=
  shapeCast S1600000 (extractStridedSlice S1x1600000 ![0, 0] x0 slices_S2x1600000_S1x1600000_0_0) shapeCasts_S1x1600000_S1600000
def dstOf (x0 : IVec S2x1600000 32) : IVec S1600000 32 :=
  shapeCast S1600000 (extractStridedSlice S1x1600000 ![1, 0] x0 slices_S2x1600000_S1x1600000_1_0) shapeCasts_S1x1600000_S1600000

/-- NumPy's negative-index rule for an array of 100000 nodes, and the result as a column of start indices. -/
def wrapCol (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- The node types at the two ends of each edge. -/
def hdOf (x0 : IVec S2x1600000 32) (x2 : IVec S100000 32) : IVec S1600000 32 :=
  Host.gather gather_S100000_S1600000x1_S1600000_n_0_n_n_0_1_1 x2 (wrapCol (srcOf x0))
def tlOf (x0 : IVec S2x1600000 32) (x2 : IVec S100000 32) : IVec S1600000 32 :=
  Host.gather gather_S100000_S1600000x1_S1600000_n_0_n_n_0_1_1 x2 (wrapCol (dstOf x0))

/-- The specified column of edge embeddings. -/
def specE (x0 : IVec S2x1600000 32) (x1 : IVec S1600000 32) (x2 : IVec S100000 32) (x3 : FVec Ideal S46x64 .f32)
    (x4 : FVec Ideal S64 .f32) (x5 : FVec Ideal S64x1 .f32) (x6 : FVec Ideal S1 .f32) : FVec Ideal S1600000x1 .f32 := fun i =>
  Cert.EdgeEmb.emb x3 x4 x5 x6 (x1 (ix1 (i 0))).toNat (hdOf x0 x2 (ix1 (i 0))).toNat (tlOf x0 x2 (ix1 (i 0))).toNat

/-- The zero array the hops start from. -/
abbrev zeros : FVec Ideal S100000x1 .f32 := broadcastInDim S100000x1 ![] bcast_S_S100000x1 (constant S_ .f32 0x00000000#32)

theorem zeros_apply (i : S100000x1.Idx) : zeros i = 0 := Ideal.ofBits_zero_f32

/-- The reference's result as its run states it: four hops from zero over its own edge embeddings. -/
def resultR (V0 : Valuation τ sig (Elt Ideal)) : FVec Ideal S100000x1 .f32 :=
  Cert.Hops.hopsR scatter_S100000x1_S1600000x1_S1600000x1_1_0_0_1 gather_S100000x1_S1600000x1_S1600000x1_1_0_n_n_0_1_11 zeros
    (broadcastInDim S1600000x1 ![0] bcast_S1600000_S1600000x1_0 (res_main_v3 V0)) (wrapCol (res_main_v1 V0)) (res_main_v70 V0)

/-- The reference's edge embeddings are the specified ones, under the label ranges. -/
theorem v70_eq (V0 : Valuation τ sig (Elt Ideal)) (h1 : ∀ e : S1600000.Idx, (ety V0 e).toNat < 38)
    (h2 : ∀ n : S100000.Idx, ((V0 (Proc.devRef .tc main_arg2) : S100000.Idx → BitVec 32) n).toNat < 4) :
    (res_main_v70 V0 : S1600000x1.Idx → EReal)
      = fun i => Cert.EdgeEmb.emb (V0 (Proc.devRef .tc main_arg3)) (V0 (Proc.devRef .tc main_arg4)) (V0 (Proc.devRef .tc main_arg5))
          (V0 (Proc.devRef .tc main_arg6)) (ety V0 (ix1 (i 0))).toNat (headTy V0 (ix1 (i 0))).toNat (tailTy V0 (ix1 (i 0))).toNat := by
  funext i
  obtain ⟨j, rfl⟩ : ∃ j : Fin 1600000, i = ix2 j (0 : Fin 1) :=
    ⟨i 0, (eq_ix2 i).trans (congrArg (ix2 (i 0)) (Fin.ext (Nat.lt_one_iff.mp (i 1).isLt)))⟩
  exact emb_at V0 j (h1 _) (h2 _) (h2 _)

/-- THE REFERENCE'S RESULT as a function of the seven argument arrays: the edge term and three hops over the specified
    embeddings. -/
theorem result_spec (V0 : Valuation τ sig (Elt Ideal))
    (x0 : IVec S2x1600000 32) (x1 : IVec S1600000 32) (x2 : IVec S100000 32) (x3 : FVec Ideal S46x64 .f32)
    (x4 : FVec Ideal S64 .f32) (x5 : FVec Ideal S64x1 .f32) (x6 : FVec Ideal S1 .f32)
    (e0 : V0 (Proc.devRef .tc main_arg0) = x0) (e1 : V0 (Proc.devRef .tc main_arg1) = x1) (e2 : V0 (Proc.devRef .tc main_arg2) = x2)
    (e3 : V0 (Proc.devRef .tc main_arg3) = x3) (e4 : V0 (Proc.devRef .tc main_arg4) = x4) (e5 : V0 (Proc.devRef .tc main_arg5) = x5)
    (e6 : V0 (Proc.devRef .tc main_arg6) = x6)
    (h1 : ∀ e : S1600000.Idx, (x1 e).toNat < 38) (h2 : ∀ n : S100000.Idx, (x2 n).toNat < 4) :
    resultR V0 = Cert.Hops.hopsK scatter_S100000x1_S1600000x1_S1600000x1_1_0_0_1 gather_S100000x1_S1600000x1_S1600000x1_1_0_n_n_0_1_11 zeros
      (broadcastInDim S1600000x1 ![0] bcast_S1600000_S1600000x1_0 (dstOf x0)) (wrapCol (srcOf x0)) (specE x0 x1 x2 x3 x4 x5 x6) := by
  subst e0 e1 e2 e3 e4 e5 e6
  unfold resultR
  rw [Cert.Hops.four_hops _ _ _ zeros_apply, v70_eq V0 h1 h2]
  rfl

end Cert.ReferenceIdeal.RefValue

end
-- ==== Proof.PreLabels.lean ====
/-
  What the precondition says of the two label arrays.

  The precondition is a conjunction, written with the word-level `and`, of one "every entry satisfies …" per array: four
  finiteness tests of the float arrays and, last, the two label-range tests  0 ≤ edge_type < 38  and  0 ≤ node_type < 4 ,
  each a signed comparison of 32-bit words.  A conjunction that is 1 has every conjunct 1; an all-reduction by `and` that
  is 1 met only 1s; and a word that is non-negative as a signed number and signed-below a small bound has its unsigned
  value below that bound.
-/
import proofs.«414910_j50800873177305_3_alg».proof.Pre_finite_inputs
import Idealize.ShloMosaic.Lib.ReduceAll
import Idealize.ShloMosaic.Lib.ValueIdx

noncomputable section

open Idealize.ShloMosaic

namespace Cert.Pre_finite_inputs.Labels

open Cert.Pre_finite_inputs

variable {F : FTy → Type} [FloatOps F] [Facts]

instance : Subsingleton S_.Idx := ⟨fun a b => funext fun d => d.elim0⟩

/-- A word that is  ≥ 0  and  < n  as a signed number, for a small bound n, is below n as an unsigned number. -/
theorem toNat_lt_of_signed (a : BitVec 32) (n : ℕ) (hn : n < 2 ^ 31)
    (h0 : IntOp.cmpi .sge a 0#32 = 1#1) (h1 : IntOp.cmpi .slt a (BitVec.ofNat 32 n) = 1#1) : a.toNat < n := by
  rw [IntOp.cmpi_sge] at h0
  rw [IntOp.cmpi_slt] at h1
  have e0 : (0#32 : BitVec 32).toInt = 0 := by decide
  have en : (BitVec.ofNat 32 n).toInt = n := by
    rw [BitVec.toInt_eq_msb_cond, BitVec.msb_eq_false_iff_two_mul_lt.mpr (by simp [BitVec.toNat_ofNat]; omega)]
    simp [BitVec.toNat_ofNat]; omega
  rw [e0] at h0
  rw [en] at h1
  have ha : a.toInt = a.toNat := by
    rw [BitVec.toInt_eq_toNat_cond] at h0 ⊢
    split
    · rfl
    · rename_i h; rw [if_neg h] at h0; have := a.isLt; omega
  omega

/-- THE LABEL RANGES: under the precondition every edge type is in [0, 38) and every node type in [0, 4). -/
theorem ranges (a0 : IVec S2x1600000 32) (a1 : IVec S1600000 32) (a2 : IVec S100000 32) (a3 : FVec F S46x64 .f32)
    (a4 : FVec F S64 .f32) (a5 : FVec F S64x1 .f32) (a6 : FVec F S1 .f32)
    (h : fn (F := F) a0 a1 a2 a3 a4 a5 a6 = fun _ => 1#1) :
    (∀ e : S1600000.Idx, (a1 e).toNat < 38) ∧ ∀ n : S100000.Idx, (a2 n).toNat < 4 := by
  have h0 := congrFun h ValueIdx.ix0
  dsimp only [fn, fn_part1] at h0
  obtain ⟨h25, h31⟩ := IntOp.andi_eq_one.1 h0
  obtain ⟨-, h24⟩ := IntOp.andi_eq_one.1 h25
  refine ⟨fun e => ?_, fun n => ?_⟩
  · obtain ⟨p, q⟩ := IntOp.andi_eq_one.1 (Host.reduce_andi_all _ _ _ _ _ h24 e)
    exact toNat_lt_of_signed (a1 e) 38 (by norm_num) p q
  · obtain ⟨p, q⟩ := IntOp.andi_eq_one.1 (Host.reduce_andi_all _ _ _ _ _ h31 n)
    exact toNat_lt_of_signed (a2 n) 4 (by norm_num) p q

end Cert.Pre_finite_inputs.Labels

end
-- ==== Proof.lean ====
/-
  Message passing over a typed graph: a kernel that tabulates the edge embedding against a reference that computes it
  edge by edge.

  The reference gives every edge the embedding of its label triple (edge type, node type of the source, node type of
  the target) — three rows of a weight matrix and a bias added, a GELU, one output column, the logistic function — and
  then does four hops  a ↦ S (a[src] + e)  from the zero array, S the scatter-add onto the target nodes.  The kernel's
  program tabulates the 608 possible embeddings at the combined label  16 a + 4 b + c , looks every edge's label up in
  the table (a product with a one-hot matrix, 2560 edges per grid point), scatter-adds the embeddings once, and does
  three hops  a ↦ S (a[src]) + S e .

  Under the label ranges  0 ≤ edge type < 38 ,  0 ≤ node type < 4  the looked-up value is the edge's own embedding
  (the combined label decodes to the triple it was made from), and the two hop schemes agree because a scatter-add
  into zeros is additive in its updates — a law of finite sums in any commutative monoid, so nothing needs to be finite.
  Source and target indices need no range: both programs apply NumPy's negative-index rule and the clamp to the same
  words before gathering, and drop the same out-of-range scatter updates.
-/
import proofs.«414910_j50800873177305_3_alg».proof.Defs
import proofs.«414910_j50800873177305_3_alg».proof.Proof.Gen.Kernel
import proofs.«414910_j50800873177305_3_alg».proof.Proof.Gen.Kernel.Skeleton
import proofs.«414910_j50800873177305_3_alg».proof.Proof.Gen.Kernel.Launch
import proofs.«414910_j50800873177305_3_alg».proof.Proof.Gen.Kernel.Points
import proofs.«414910_j50800873177305_3_alg».proof.Proof.Gen.Kernel.Frame
import proofs.«414910_j50800873177305_3_alg».proof.Proof.Gen.KernelIdeal
import proofs.«414910_j50800873177305_3_alg».proof.Proof.Gen.KernelIdeal.Skeleton
import proofs.«414910_j50800873177305_3_alg».proof.Proof.Gen.KernelIdeal.Launch
import proofs.«414910_j50800873177305_3_alg».proof.Proof.Gen.KernelIdeal.Points
import proofs.«414910_j50800873177305_3_alg».proof.Proof.Gen.KernelIdeal.Frame
import proofs.«414910_j50800873177305_3_alg».proof.Proof.Gen.ReferenceIdeal
import proofs.«414910_j50800873177305_3_alg».proof.Proof.Gen.ReferenceIdeal.Run
import proofs.«414910_j50800873177305_3_alg».proof.Proof.Gen.Pre_finite_inputs
import proofs.«414910_j50800873177305_3_alg».proof.Proof.KerValue
import proofs.«414910_j50800873177305_3_alg».proof.Proof.RefValue
import proofs.«414910_j50800873177305_3_alg».proof.Proof.PreLabels
import Idealize.ShloMosaic.Adequacy
import Idealize.ShloMosaic.Init

set_option maxRecDepth 16384

noncomputable section

namespace Cert.Proof

open Idealize.ShloMosaic Idealize.ShloMosaic.StableHlo Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, with its result forgotten. -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- Both programs end at the edge term and three hops over the embeddings of the edges' own label triples. -/
theorem algebraic : Cert.algebraic_KernelIdeal_ReferenceIdeal := by
  intro m ρ m' ρ' hpre hagree
  refine ⟨fun c => Pipeline.afterTail₀ Cert.KernelIdeal.cfgs (Cert.KernelIdeal.Gen.dats (F := Ideal) m) 0
      (Cert.KernelIdeal.Gen.V0 m) [Cert.KernelIdeal.Gen.hostOps1] c Cert.KernelIdeal.main_v123,
    Cert.KernelIdeal.KerValue.run m ρ, ?_⟩
  refine (θ_run Cert.ReferenceIdeal.defs _ _).mono (fun r h c => ⟨(h c).1.trans ?_, (h c).2⟩)
    (Cert.ReferenceIdeal.Value.run (F := Ideal) m' ρ')
  obtain ⟨hl1, hl2⟩ := Cert.Pre_finite_inputs.Labels.ranges (F := Ideal) _ _ _ _ _ _ _ (hpre c)
  obtain ⟨a0, a1, a2, a3, a4, a5, a6⟩ := hagree c
  show Cert.ReferenceIdeal.RefValue.resultR (launchContents m' c)
    = (Pipeline.afterTail₀ Cert.KernelIdeal.cfgs (Cert.KernelIdeal.Gen.dats (F := Ideal) m) 0
        (Cert.KernelIdeal.Gen.V0 m) [Cert.KernelIdeal.Gen.hostOps1] c Cert.KernelIdeal.main_v123 : Cert.KernelIdeal.S100000x1.Idx → EReal)
  rw [Cert.KernelIdeal.KerValue.result_eq m c hl1 hl2]
  refine (Cert.ReferenceIdeal.RefValue.result_spec (launchContents m' c) _ _ _ _ _ _ _ a0 a1 a2 a3 a4 a5 a6 hl1 hl2).trans ?_
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
